-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v45)) (v1 : (c : Dev Cert.KernelIdeal.nD) → Buf (Elt Ideal) ((c.tc : Thread Cert.KernelIdeal.nD Cert.KernelIdeal.τ).loc Cert.KernelIdeal.main_v18)) (v2 : (c : Dev Cert.KernelIdeal.nD) → Buf (Elt Ideal) ((c.tc : Thread Cert.KernelIdeal.nD Cert.KernelIdeal.τ).loc Cert.KernelIdeal.main_v1)) (v3 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_v1) = v2 c
          ∧ r.2.mem ((c.tc : Thread Cert.KernelIdeal.nD Cert.KernelIdeal.τ).loc Cert.KernelIdeal.main_v2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_v1) = v2 c
          ∧ r.2.mem ((c.tc : Thread Cert.ReferenceIdeal.nD Cert.ReferenceIdeal.τ).loc Cert.ReferenceIdeal.main_v2) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x512 : Shape := ⟨3, ![64, 2048, 512]⟩
abbrev S64x2048 : Shape := ⟨2, ![64, 2048]⟩
abbrev S64 : Shape := ⟨1, ![64]⟩
abbrev S_ : Shape := ⟨0, ![]⟩

class Facts : Prop where
  bcast_S_S64x2048x512 : S_.BroadcastsInDim S64x2048x512 (![] : Fin 0 → Fin S64x2048x512.rank)
  reducesTo_S64x2048x512_S_d0_1_2 : S64x2048x512.ReducesTo [0, 1, 2] S_
  h_S_ : 0 < S_.numel
  bcast_S_S64x2048 : S_.BroadcastsInDim S64x2048 (![] : Fin 0 → Fin S64x2048.rank)
  reducesTo_S64x2048_S_d0_1 : S64x2048.ReducesTo [0, 1] S_

variable [Facts]

def fn {F : FTy → Type} [FloatOps F] (main_arg0 : FVec F S64x2048x512 .f32) (main_arg1 : FVec F S64x2048 .f32) (main_arg2 : IVec S64 32) : IVec S_ 1 :=
  let main_v0 : FVec F S64x2048x512 .f32 := Host.absf main_arg0
  let main_cst : FVec F S_ .f32 := constant S_ .f32 0x7F800000#32
  let main_v1 : FVec F S64x2048x512 .f32 := broadcastInDim S64x2048x512 ![] bcast_S_S64x2048x512 main_cst
  let main_v2 : IVec S64x2048x512 1 := cmpf .olt main_v0 main_v1
  let main_c : IVec S_ 1 := constantI S_ 1 1#1
  let main_v3 : IVec S_ 1 := (fun x v => Host.reduce IntOp.andi x v reducesTo_S64x2048x512_S_d0_1_2 h_S_) main_v2 main_c
  let main_v4 : FVec F S64x2048 .f32 := Host.absf main_arg1
  let main_cst_0 : FVec F S_ .f32 := constant S_ .f32 0x7F800000#32
  let main_v5 : FVec F S64x2048 .f32 := broadcastInDim S64x2048 ![] bcast_S_S64x2048 main_cst_0
  let main_v6 : IVec S64x2048 1 := cmpf .olt main_v4 main_v5
  let main_c_1 : IVec S_ 1 := constantI S_ 1 1#1
  let main_v7 : IVec S_ 1 := (fun x v => Host.reduce IntOp.andi x v reducesTo_S64x2048_S_d0_1 h_S_) main_v6 main_c_1
  let main_v8 : IVec S_ 1 := andi main_v3 main_v7
  main_v8
-- ==== Kernel.lean ====
abbrev S64x2048x512 : Shape := ⟨3, ![64, 2048, 512]⟩
abbrev S64x2048 : Shape := ⟨2, ![64, 2048]⟩
abbrev S64 : Shape := ⟨1, ![64]⟩
abbrev S_ : Shape := ⟨0, ![]⟩
abbrev S64x1 : Shape := ⟨2, ![64, 1]⟩
abbrev S1x2048x512 : Shape := ⟨3, ![1, 2048, 512]⟩
abbrev S1 : Shape := ⟨1, ![1]⟩
abbrev S2048 : Shape := ⟨1, ![2048]⟩
abbrev S1x2048 : Shape := ⟨2, ![1, 2048]⟩
abbrev S2047 : Shape := ⟨1, ![2047]⟩
abbrev S131073x512 : Shape := ⟨2, ![131073, 512]⟩
abbrev S131072 : Shape := ⟨1, ![131072]⟩
abbrev S131072x512 : Shape := ⟨2, ![131072, 512]⟩
abbrev S131072x1 : Shape := ⟨2, ![131072, 1]⟩

abbrev nBuf : Space → Nat
  | .hbm => 64
  | .vmem => 4
  | .smem => 1
  | _ => 0

abbrev bufTy : (tb : Table) → Fin (tcTables nBuf tb) → BufTy
  | .hbm, ⟨0, _⟩ => ⟨S64x2048x512, .f32⟩
  | .hbm, ⟨1, _⟩ => ⟨S64x2048, .f32⟩
  | .hbm, ⟨2, _⟩ => ⟨S64, .i32⟩
  | .hbm, ⟨3, _⟩ => ⟨S64, .i32⟩
  | .hbm, ⟨4, _⟩ => ⟨S64, .i32⟩
  | .hbm, ⟨5, _⟩ => ⟨S64, .i32⟩
  | .hbm, ⟨6, _⟩ => ⟨S64, .i32⟩
  | .hbm, ⟨7, _⟩ => ⟨S64, .i32⟩
  | .hbm, ⟨8, _⟩ => ⟨S64, .i32⟩
  | .hbm, ⟨9, _⟩ => ⟨S_, .i32⟩
  | .hbm, ⟨10, _⟩ => ⟨S64, .i32⟩
  | .hbm, ⟨11, _⟩ => ⟨S64, .i1⟩
  | .hbm, ⟨12, _⟩ => ⟨S_, .i32⟩
  | .hbm, ⟨13, _⟩ => ⟨S64, .i32⟩
  | .hbm, ⟨14, _⟩ => ⟨S64, .i32⟩
  | .hbm, ⟨15, _⟩ => ⟨S64, .i32⟩
  | .hbm, ⟨16, _⟩ => ⟨S64x1, .i32⟩
  | .hbm, ⟨17, _⟩ => ⟨S64, .i32⟩
  | .hbm, ⟨18, _⟩ => ⟨S64x2048x512, .f32⟩
  | .hbm, ⟨19, _⟩ => ⟨S2048, .i32⟩
  | .hbm, ⟨20, _⟩ => ⟨S64x1, .i32⟩
  | .hbm, ⟨21, _⟩ => ⟨S1x2048, .i32⟩
  | .hbm, ⟨22, _⟩ => ⟨S64x2048, .i32⟩
  | .hbm, ⟨23, _⟩ => ⟨S64x2048, .i32⟩
  | .hbm, ⟨24, _⟩ => ⟨S64x2048, .i1⟩
  | .hbm, ⟨25, _⟩ => ⟨S64x2048, .i32⟩
  | .hbm, ⟨26, _⟩ => ⟨S_, .i32⟩
  | .hbm, ⟨27, _⟩ => ⟨S2048, .i32⟩
  | .hbm, ⟨28, _⟩ => ⟨S_, .i32⟩
  | .hbm, ⟨29, _⟩ => ⟨S1, .i32⟩
  | .hbm, ⟨30, _⟩ => ⟨S_, .i32⟩
  | .hbm, ⟨31, _⟩ => ⟨S_, .i32⟩
  | .hbm, ⟨32, _⟩ => ⟨S2048, .i32⟩
  | .hbm, ⟨33, _⟩ => ⟨S2047, .i32⟩
  | .hbm, ⟨34, _⟩ => ⟨S2048, .i32⟩
  | .hbm, ⟨35, _⟩ => ⟨S64, .i32⟩
  | .hbm, ⟨36, _⟩ => ⟨S1x2048, .i32⟩
  | .hbm, ⟨37, _⟩ => ⟨S64x1, .i32⟩
  | .hbm, ⟨38, _⟩ => ⟨S64x2048, .i32⟩
  | .hbm, ⟨39, _⟩ => ⟨S64x2048, .i32⟩
  | .hbm, ⟨40, _⟩ => ⟨S64x2048, .i1⟩
  | .hbm, ⟨41, _⟩ => ⟨S1x2048, .i32⟩
  | .hbm, ⟨42, _⟩ => ⟨S64x1, .i32⟩
  | .hbm, ⟨43, _⟩ => ⟨S64x2048, .i32⟩
  | .hbm, ⟨44, _⟩ => ⟨S64x2048, .i32⟩
  | .hbm, ⟨45, _⟩ => ⟨S64x2048, .i32⟩
  | .hbm, ⟨46, _⟩ => ⟨S_, .i32⟩
  | .hbm, ⟨47, _⟩ => ⟨S_, .i32⟩
  | .hbm, ⟨48, _⟩ => ⟨S64x2048, .i32⟩
  | .hbm, ⟨49, _⟩ => ⟨S64x2048, .i32⟩
  | .hbm, ⟨50, _⟩ => ⟨S_, .f32⟩
  | .hbm, ⟨51, _⟩ => ⟨S131073x512, .f32⟩
  | .hbm, ⟨52, _⟩ => ⟨S131072, .i32⟩
  | .hbm, ⟨53, _⟩ => ⟨S131072x512, .f32⟩
  | .hbm, ⟨54, _⟩ => ⟨S_, .i32⟩
  | .hbm, ⟨55, _⟩ => ⟨S131072, .i32⟩
  | .hbm, ⟨56, _⟩ => ⟨S131072, .i1⟩
  | .hbm, ⟨57, _⟩ => ⟨S_, .i32⟩
  | .hbm, ⟨58, _⟩ => ⟨S131072, .i32⟩
  | .hbm, ⟨59, _⟩ => ⟨S131072, .i32⟩
  | .hbm, ⟨60, _⟩ => ⟨S131072, .i32⟩
  | .hbm, ⟨61, _⟩ => ⟨S131072x1, .i32⟩
  | .hbm, ⟨62, _⟩ => ⟨S131073x512, .f32⟩
  | .hbm, ⟨63, _⟩ => ⟨S131072x512, .f32⟩
  | .local _ .vmem, ⟨0, _⟩ => ⟨S1x2048x512, .f32⟩
  | .local _ .vmem, ⟨1, _⟩ => ⟨S1x2048x512, .f32⟩
  | .local _ .vmem, ⟨2, _⟩ => ⟨S1x2048x512, .f32⟩
  | .local _ .vmem, ⟨3, _⟩ => ⟨S1x2048x512, .f32⟩
  | .local _ .smem, ⟨0, _⟩ => ⟨S64, .i32⟩
  | _, _ => ⟨S64x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1_0 : Ref sig .tc := ⟨.hbm, 5, rfl⟩
abbrev main_call1_v0 : Ref sig .tc := ⟨.hbm, 6, rfl⟩
abbrev main_call1_v1_0 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_1 : Ref sig .tc := ⟨.hbm, 26, rfl⟩
abbrev main_v18 : Ref sig .tc := ⟨.hbm, 27, rfl⟩
abbrev main_c_2 : Ref sig .tc := ⟨.hbm, 28, rfl⟩
abbrev main_v19 : Ref sig .tc := ⟨.hbm, 29, rfl⟩
abbrev main_call2_call0_c : Ref sig .tc := ⟨.hbm, 30, rfl⟩
abbrev main_call2_call0_v0 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_3 : Ref sig .tc := ⟨.hbm, 46, rfl⟩
abbrev main_call3_v0 : Ref sig .tc := ⟨.hbm, 47, rfl⟩
abbrev main_call3_v1 : Ref sig .tc := ⟨.hbm, 48, rfl⟩
abbrev main_v34 : Ref sig .tc := ⟨.hbm, 49, rfl⟩
abbrev main_cst : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_c_4 : Ref sig .tc := ⟨.hbm, 54, rfl⟩
abbrev main_v38 : Ref sig .tc := ⟨.hbm, 55, rfl⟩
abbrev main_v39 : Ref sig .tc := ⟨.hbm, 56, rfl⟩
abbrev main_c_5 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

abbrev pre0 : Pipeline.Prefetch sig := ⟨1, ![main_v1.idx], fun | 0 => main_v1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S64) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  bcast_S_S64 : S_.BroadcastsInDim S64 (![] : Fin 0 → Fin S64.rank)
  bcast_S64_S64x1_0 : S64.BroadcastsInDim S64x1 (![0] : Fin 1 → Fin S64x1.rank)
  numel1_S1 : S1.numel = 1
  inb_S1x2048x512_S1x2048x512_0_0_0 : ∀ a, (![0, 0, 0] : Fin 3 → Nat) a + S1x2048x512.size a ≤ S1x2048x512.size a
  h_S1x2048x512 : 0 < S1x2048x512.numel
  bcast_S2048_S1x2048_1 : S2048.BroadcastsInDim S1x2048 (![1] : Fin 1 → Fin S1x2048.rank)
  bcast_S64x1_S64x2048_0_1 : S64x1.BroadcastsInDim S64x2048 (![0, 1] : Fin 2 → Fin S64x2048.rank)
  bcast_S1x2048_S64x2048_0_1 : S1x2048.BroadcastsInDim S64x2048 (![0, 1] : Fin 2 → Fin S64x2048.rank)
  natLt_1_32 : 1 < 32
  reducesTo_S64x2048_S2048_d0 : S64x2048.ReducesTo [0] S2048
  h_S_ : 0 < S_.numel
  bcast_S_S1 : S_.BroadcastsInDim S1 (![] : Fin 0 → Fin S1.rank)
  bcast_S_S_ : S_.BroadcastsInDim S_ (![] : Fin 0 → Fin S_.rank)
  reduceWindows_S2048_S2048_w2048s1p2047_0 : S2048.ReduceWindows (![2048] : Fin 1 → Nat) ![1] ![2047] ![0] S2048
  slices_S2048_S2047_0 : S2048.Slices ![0] S2047
  concatenates_S1_S2047_S2048_d0 : Shape.Concatenates [S1, S2047] S2048 0
  bcast_S_S64x2048 : S_.BroadcastsInDim S64x2048 (![] : Fin 0 → Fin S64x2048.rank)
  bcast_S_S131073x512 : S_.BroadcastsInDim S131073x512 (![] : Fin 0 → Fin S131073x512.rank)
  shapeCasts_S64x2048_S131072 : S64x2048.ShapeCasts S131072
  shapeCasts_S64x2048x512_S131072x512 : S64x2048x512.ShapeCasts S131072x512
  bcast_S_S131072 : S_.BroadcastsInDim S131072 (![] : Fin 0 → Fin S131072.rank)
  bcast_S131072_S131072x1_0 : S131072.BroadcastsInDim S131072x1 (![0] : Fin 1 → Fin S131072x1.rank)
  slices_S131073x512_S131072x512_0_0 : S131073x512.Slices ![0, 0] S131072x512
  gather_S64_S64x1_S64_n_0_n_n_0_1_1_wf : GatherDims.WF S64 S64x1 S64 [] [0] [] [0] [] 1 ![1]
  scatter_S131073x512_S131072x1_S131072x512_1_0_0_1_wf : ScatterDims.WF S131073x512 S131072x1 S131072x512 [1] [0] [0] 1
  hrank0 : 0 < grid0.rank
  k0_off1_inb : ∀ i : grid0.Coords, ∀ a, (k0_off1 i) a + S1.size a ≤ S64.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x512.size a ≤ S64x2048x512.size a
  hwx0_1 : ∀ i : grid0.Coords, EltTy.bits .f32 = 32 ∨ (Rect.block (s := S64x2048x512) S1x2048x512.size (cc0_transform_1 i) (hinb0_1 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S64_S64x1_S64_n_0_n_n_0_1_1 : GatherDims S64 S64x1 S64 where
  offsetDims := []
  collapsedSliceDims := [0]
  operandBatchingDims := []
  startIndicesBatchingDims := []
  startIndexMap := [0]
  indexVectorDim := 1
  sliceSizes := ![1]
  wf := gather_S64_S64x1_S64_n_0_n_n_0_1_1_wf
def scatter_S131073x512_S131072x1_S131072x512_1_0_0_1 : ScatterDims S131073x512 S131072x1 S131072x512 where
  updateWindowDims := [1]
  insertedWindowDims := [0]
  scatterDimsToOperandDims := [0]
  indexVectorDim := 1
  wf := scatter_S131073x512_S131072x1_S131072x512_1_0_0_1_wf

abbrev spec0_0 : Pipeline.WinSpec sig grid0.rank :=
  Pipeline.WinSpec.ofSpec (Memref.whole main_arg0) S1x2048x512.size reads0_0 false false 2 stage0_0 sem0_0 nbuf0_0 hstage0_0

abbrev spec0_1 : Pipeline.WinSpec sig grid0.rank :=
  Pipeline.WinSpec.ofSpec (Memref.whole main_v10) S1x2048x512.size reads0_1 true false 2 stage0_1 sem0_1 nbuf0_1 hstage0_1

abbrev spec0 : Fin 2 → Pipeline.WinSpec sig grid0.rank := fun | 0 => spec0_0 | 1 => spec0_1 | ⟨_ + 2, h⟩ => absurd h (Nat.not_lt.2 (Nat.le_add_left _ _))
theorem hcount0 : ∀ w, grid0.bufCount (spec0 w).reads (spec0 w).sync = (spec0 w).nbuf := fun | 0 => nbuf0_0 | 1 => nbuf0_1 | ⟨_ + 2, h⟩ => absurd h (Nat.not_lt.2 (Nat.le_add_left _ _))
abbrev ix0 (pf : pre0.Contents (Elt F)) : (w : Fin 2) → grid0.Coords → Fin (spec0 w).shape.rank → Nat := fun | 0 => cc0_transform_0 k0_off1_inb numel1_S1 pf | 1 => cc0_transform_1 | ⟨_ + 2, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 | ⟨_ + 2, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x2048x512.size a ≤ S64x2048x512.size a), EltTy.bits .f32 = 32 ∨ (Rect.block (s := S64x2048x512) S1x2048x512.size (cc0_transform_0 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok i).elim fun h _ => h a | 1 => hinb0_1 | ⟨_ + 2, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok i).elim fun _ h => h | 1 => hwx0_1 | ⟨_ + 2, h⟩ => absurd h (Nat.not_lt.2 (Nat.le_add_left _ _))

class Facts : Prop extends Facts₀ where
  harr0 : ∀ w, (spec0 w).arr.IsWhole

variable [Facts]
-- ==== ReferenceIdeal.lean ====
abbrev S64x2048x512 : Shape := ⟨3, ![64, 2048, 512]⟩
abbrev S64x2048 : Shape := ⟨2, ![64, 2048]⟩
abbrev S64 : Shape := ⟨1, ![64]⟩
abbrev S_ : Shape := ⟨0, ![]⟩
abbrev S64x1 : Shape := ⟨2, ![64, 1]⟩
abbrev S2048 : Shape := ⟨1, ![2048]⟩
abbrev S1x2048 : Shape := ⟨2, ![1, 2048]⟩
abbrev S1 : Shape := ⟨1, ![1]⟩
abbrev S2047 : Shape := ⟨1, ![2047]⟩
abbrev S131073x512 : Shape := ⟨2, ![131073, 512]⟩
abbrev S131072 : Shape := ⟨1, ![131072]⟩
abbrev S131072x512 : Shape := ⟨2, ![131072, 512]⟩
abbrev S131072x1 : Shape := ⟨2, ![131072, 1]⟩

abbrev nBuf : Space → Nat
  | .hbm => 73
  | .vmem => 0
  | .smem => 0
  | _ => 0

abbrev bufTy : (tb : Table) → Fin (tcTables nBuf tb) → BufTy
  | .hbm, ⟨0, _⟩ => ⟨S64x2048x512, .f32⟩
  | .hbm, ⟨1, _⟩ => ⟨S64x2048, .f32⟩
  | .hbm, ⟨2, _⟩ => ⟨S64, .i32⟩
  | .hbm, ⟨3, _⟩ => ⟨S64, .i32⟩
  | .hbm, ⟨4, _⟩ => ⟨S64, .i32⟩
  | .hbm, ⟨5, _⟩ => ⟨S64, .i32⟩
  | .hbm, ⟨6, _⟩ => ⟨S64, .i32⟩
  | .hbm, ⟨7, _⟩ => ⟨S64, .i32⟩
  | .hbm, ⟨8, _⟩ => ⟨S64, .i32⟩
  | .hbm, ⟨9, _⟩ => ⟨S64, .i32⟩
  | .hbm, ⟨10, _⟩ => ⟨S_, .i32⟩
  | .hbm, ⟨11, _⟩ => ⟨S64, .i32⟩
  | .hbm, ⟨12, _⟩ => ⟨S64, .i1⟩
  | .hbm, ⟨13, _⟩ => ⟨S_, .i32⟩
  | .hbm, ⟨14, _⟩ => ⟨S64, .i32⟩
  | .hbm, ⟨15, _⟩ => ⟨S64, .i32⟩
  | .hbm, ⟨16, _⟩ => ⟨S64, .i32⟩
  | .hbm, ⟨17, _⟩ => ⟨S64x1, .i32⟩
  | .hbm, ⟨18, _⟩ => ⟨S64, .i32⟩
  | .hbm, ⟨19, _⟩ => ⟨S_, .i32⟩
  | .hbm, ⟨20, _⟩ => ⟨S64, .i32⟩
  | .hbm, ⟨21, _⟩ => ⟨S64, .i1⟩
  | .hbm, ⟨22, _⟩ => ⟨S_, .i32⟩
  | .hbm, ⟨23, _⟩ => ⟨S64, .i32⟩
  | .hbm, ⟨24, _⟩ => ⟨S64, .i32⟩
  | .hbm, ⟨25, _⟩ => ⟨S64, .i32⟩
  | .hbm, ⟨26, _⟩ => ⟨S64x1, .i32⟩
  | .hbm, ⟨27, _⟩ => ⟨S64x2048x512, .f32⟩
  | .hbm, ⟨28, _⟩ => ⟨S2048, .i32⟩
  | .hbm, ⟨29, _⟩ => ⟨S64x1, .i32⟩
  | .hbm, ⟨30, _⟩ => ⟨S1x2048, .i32⟩
  | .hbm, ⟨31, _⟩ => ⟨S64x2048, .i32⟩
  | .hbm, ⟨32, _⟩ => ⟨S64x2048, .i32⟩
  | .hbm, ⟨33, _⟩ => ⟨S64x2048, .i1⟩
  | .hbm, ⟨34, _⟩ => ⟨S64x2048, .i32⟩
  | .hbm, ⟨35, _⟩ => ⟨S_, .i32⟩
  | .hbm, ⟨36, _⟩ => ⟨S2048, .i32⟩
  | .hbm, ⟨37, _⟩ => ⟨S_, .i32⟩
  | .hbm, ⟨38, _⟩ => ⟨S1, .i32⟩
  | .hbm, ⟨39, _⟩ => ⟨S_, .i32⟩
  | .hbm, ⟨40, _⟩ => ⟨S_, .i32⟩
  | .hbm, ⟨41, _⟩ => ⟨S2048, .i32⟩
  | .hbm, ⟨42, _⟩ => ⟨S2047, .i32⟩
  | .hbm, ⟨43, _⟩ => ⟨S2048, .i32⟩
  | .hbm, ⟨44, _⟩ => ⟨S64, .i32⟩
  | .hbm, ⟨45, _⟩ => ⟨S1x2048, .i32⟩
  | .hbm, ⟨46, _⟩ => ⟨S64x1, .i32⟩
  | .hbm, ⟨47, _⟩ => ⟨S64x2048, .i32⟩
  | .hbm, ⟨48, _⟩ => ⟨S64x2048, .i32⟩
  | .hbm, ⟨49, _⟩ => ⟨S64x2048, .i1⟩
  | .hbm, ⟨50, _⟩ => ⟨S1x2048, .i32⟩
  | .hbm, ⟨51, _⟩ => ⟨S64x1, .i32⟩
  | .hbm, ⟨52, _⟩ => ⟨S64x2048, .i32⟩
  | .hbm, ⟨53, _⟩ => ⟨S64x2048, .i32⟩
  | .hbm, ⟨54, _⟩ => ⟨S64x2048, .i32⟩
  | .hbm, ⟨55, _⟩ => ⟨S_, .i32⟩
  | .hbm, ⟨56, _⟩ => ⟨S_, .i32⟩
  | .hbm, ⟨57, _⟩ => ⟨S64x2048, .i32⟩
  | .hbm, ⟨58, _⟩ => ⟨S64x2048, .i32⟩
  | .hbm, ⟨59, _⟩ => ⟨S_, .f32⟩
  | .hbm, ⟨60, _⟩ => ⟨S131073x512, .f32⟩
  | .hbm, ⟨61, _⟩ => ⟨S131072, .i32⟩
  | .hbm, ⟨62, _⟩ => ⟨S131072x512, .f32⟩
  | .hbm, ⟨63, _⟩ => ⟨S_, .i32⟩
  | .hbm, ⟨64, _⟩ => ⟨S131072, .i32⟩
  | .hbm, ⟨65, _⟩ => ⟨S131072, .i1⟩
  | .hbm, ⟨66, _⟩ => ⟨S_, .i32⟩
  | .hbm, ⟨67, _⟩ => ⟨S131072, .i32⟩
  | .hbm, ⟨68, _⟩ => ⟨S131072, .i32⟩
  | .hbm, ⟨69, _⟩ => ⟨S131072, .i32⟩
  | .hbm, ⟨70, _⟩ => ⟨S131072x1, .i32⟩
  | .hbm, ⟨71, _⟩ => ⟨S131073x512, .f32⟩
  | .hbm, ⟨72, _⟩ => ⟨S131072x512, .f32⟩
  | _, _ => ⟨S64x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1_0 : Ref sig .tc := ⟨.hbm, 5, rfl⟩
abbrev main_v1 : Ref sig .tc := ⟨.hbm, 6, rfl⟩
abbrev main_call1_v0 : Ref sig .tc := ⟨.hbm, 7, rfl⟩
abbrev main_call1_v1_0 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_3 : Ref sig .tc := ⟨.hbm, 35, rfl⟩
abbrev main_v24 : Ref sig .tc := ⟨.hbm, 36, rfl⟩
abbrev main_c_4 : Ref sig .tc := ⟨.hbm, 37, rfl⟩
abbrev main_v25 : Ref sig .tc := ⟨.hbm, 38, rfl⟩
abbrev main_call2_call0_c : Ref sig .tc := ⟨.hbm, 39, rfl⟩
abbrev main_call2_call0_v0 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c_5 : Ref sig .tc := ⟨.hbm, 55, rfl⟩
abbrev main_call3_v0 : Ref sig .tc := ⟨.hbm, 56, rfl⟩
abbrev main_call3_v1 : Ref sig .tc := ⟨.hbm, 57, rfl⟩
abbrev main_v40 : Ref sig .tc := ⟨.hbm, 58, rfl⟩
abbrev main_cst : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_c_6 : Ref sig .tc := ⟨.hbm, 63, rfl⟩
abbrev main_v44 : Ref sig .tc := ⟨.hbm, 64, rfl⟩
abbrev main_v45 : Ref sig .tc := ⟨.hbm, 65, rfl⟩
abbrev main_c_7 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩

abbrev nD : Nat := 1
abbrev τ : Topo := Topo.v7x

variable {F : FTy → Type} [FloatOps F]

class Facts₀ : Prop where
  bcast_S_S64 : S_.BroadcastsInDim S64 (![] : Fin 0 → Fin S64.rank)
  bcast_S64_S64x1_0 : S64.BroadcastsInDim S64x1 (![0] : Fin 1 → Fin S64x1.rank)
  bcast_S2048_S1x2048_1 : S2048.BroadcastsInDim S1x2048 (![1] : Fin 1 → Fin S1x2048.rank)
  bcast_S64x1_S64x2048_0_1 : S64x1.BroadcastsInDim S64x2048 (![0, 1] : Fin 2 → Fin S64x2048.rank)
  bcast_S1x2048_S64x2048_0_1 : S1x2048.BroadcastsInDim S64x2048 (![0, 1] : Fin 2 → Fin S64x2048.rank)
  natLt_1_32 : 1 < 32
  reducesTo_S64x2048_S2048_d0 : S64x2048.ReducesTo [0] S2048
  h_S_ : 0 < S_.numel
  bcast_S_S1 : S_.BroadcastsInDim S1 (![] : Fin 0 → Fin S1.rank)
  bcast_S_S_ : S_.BroadcastsInDim S_ (![] : Fin 0 → Fin S_.rank)
  reduceWindows_S2048_S2048_w2048s1p2047_0 : S2048.ReduceWindows (![2048] : Fin 1 → Nat) ![1] ![2047] ![0] S2048
  slices_S2048_S2047_0 : S2048.Slices ![0] S2047
  concatenates_S1_S2047_S2048_d0 : Shape.Concatenates [S1, S2047] S2048 0
  bcast_S_S64x2048 : S_.BroadcastsInDim S64x2048 (![] : Fin 0 → Fin S64x2048.rank)
  bcast_S_S131073x512 : S_.BroadcastsInDim S131073x512 (![] : Fin 0 → Fin S131073x512.rank)
  shapeCasts_S64x2048_S131072 : S64x2048.ShapeCasts S131072
  shapeCasts_S64x2048x512_S131072x512 : S64x2048x512.ShapeCasts S131072x512
  bcast_S_S131072 : S_.BroadcastsInDim S131072 (![] : Fin 0 → Fin S131072.rank)
  bcast_S131072_S131072x1_0 : S131072.BroadcastsInDim S131072x1 (![0] : Fin 1 → Fin S131072x1.rank)
  slices_S131073x512_S131072x512_0_0 : S131073x512.Slices ![0, 0] S131072x512
  gather_S64_S64x1_S64_n_0_n_n_0_1_1_wf : GatherDims.WF S64 S64x1 S64 [] [0] [] [0] [] 1 ![1]
  gather_S64x2048x512_S64x1_S64x2048x512_12_0_n_n_0_1_12048512_wf : GatherDims.WF S64x2048x512 S64x1 S64x2048x512 [1, 2] [0] [] [0] [] 1 ![1, 2048, 512]
  scatter_S131073x512_S131072x1_S131072x512_1_0_0_1_wf : ScatterDims.WF S131073x512 S131072x1 S131072x512 [1] [0] [0] 1

variable [Facts₀]

def comparator_i32_i32_d0 : BitVec 32 × BitVec 32 → BitVec 32 × BitVec 32 → BitVec 1 :=
  fun l r =>
    let v2 := IntOp.cmpi .slt l.1 r.1
    v2
def gather_S64_S64x1_S64_n_0_n_n_0_1_1 : GatherDims S64 S64x1 S64 where
  offsetDims := []
  collapsedSliceDims := [0]
  operandBatchingDims := []
  startIndicesBatchingDims := []
  startIndexMap := [0]
  indexVectorDim := 1
  sliceSizes := ![1]
  wf := gather_S64_S64x1_S64_n_0_n_n_0_1_1_wf
def gather_S64x2048x512_S64x1_S64x2048x512_12_0_n_n_0_1_12048512 : GatherDims S64x2048x512 S64x1 S64x2048x512 where
  offsetDims := [1, 2]
  collapsedSliceDims := [0]
  operandBatchingDims := []
  startIndicesBatchingDims := []
  startIndexMap := [0]
  indexVectorDim := 1
  sliceSizes := ![1, 2048, 512]
  wf := gather_S64x2048x512_S64x1_S64x2048x512_12_0_n_n_0_1_12048512_wf
def scatter_S131073x512_S131072x1_S131072x512_1_0_0_1 : ScatterDims S131073x512 S131072x1 S131072x512 where
  updateWindowDims := [1]
  insertedWindowDims := [0]
  scatterDimsToOperandDims := [0]
  indexVectorDim := 1
  wf := scatter_S131073x512_S131072x1_S131072x512_1_0_0_1_wf

class Facts : Prop extends Facts₀ where

variable [Facts]
-- ==== Proof.LibSortIota.lean ====
import Idealize.ShloMosaic.Lib.SortFacts
import Idealize.ShloMosaic.Lib.ValueIdx

/-!
# An argsort's result holds positions

A two-operand stable sort along the one axis of a vector of `n` elements, whose second operand is the
iota `0, 1, …, n − 1` (jnp's `argsort`), returns as its second result the iota read through ONE self-map of
the positions. So every word of that result is the number of a position: as a natural it is below `n`,
whatever the keys and the comparator are. The consequences used downstream: the word is not negative when
read signed, it survives a clamp into `[0, n − 1]`, and "add `n` if negative" leaves it alone.
-/

namespace Cert.LibSortIota

open Idealize.ShloMosaic

/-- Every word of an argsort's result, as a natural, is below the number of elements: the word is the iota
    at the position the sort reads, and the iota at position `k` is `k`. -/
theorem sort2_iota_snd_toNat_lt {n : Nat} {α : Type} (cmp : α × BitVec 32 → α × BitVec 32 → BitVec 1)
    (x : (⟨1, ![n]⟩ : Shape).Idx → α) (j : (⟨1, ![n]⟩ : Shape).Idx) :
    ((Host.sort2 ⟨1, ![n]⟩ 0 cmp x (iotaInDim ⟨1, ![n]⟩ 32 0)).2 j).toNat < n := by
  unfold Host.sort2
  rw [dif_pos (show 0 < (⟨1, ![n]⟩ : Shape).rank from Nat.one_pos)]
  show (iotaInDim ⟨1, ![n]⟩ 32 0 (Shape.Idx.along j _ _)).toNat < n
  unfold iotaInDim Shape.Idx.along
  rw [BitVec.toNat_ofNat]
  exact lt_of_le_of_lt (Nat.mod_le _ _) (Fin.isLt _)

end Cert.LibSortIota
-- ==== Proof.KernelTable.lean ====
import proofs.«410026_j11879879542307_1_alg».proof.Proof.Gen.Kernel.Frame
import proofs.«410026_j11879879542307_1_alg».proof.Proof.LibSortIota

/-!
The prefetched table of the gather kernel is the program's own `argsort(-lengths)`: the second result of a
stable two-operand sort that carries the iota of 64 positions. Whatever `lengths` holds, each of its words is
therefore the number of a position, below 64, so the block `(table[i], 0, 0)` of one `2048 × 512` plane the
input window fetches at grid point `i` lies inside the `64 × 2048 × 512` array: the side condition under which
the pipeline runs holds of every launch memory, with no assumption on the inputs.
-/

set_option maxRecDepth 16384

noncomputable section

namespace Cert.Kernel.Table

open Cert.Kernel Cert.Kernel.Gen
open Idealize.ShloMosaic Idealize.ShloMosaic.TcCoe Idealize.SL.Sem

variable {F : FTy → Type} [FloatOps F]

/-- The input window's index map at ANY contents `pf` of the table: the plane is the table's word at some
    position, the two inner block indices are zero. -/
theorem transform0_eq (pf : pre0.Contents (Elt F)) (i : grid0.Coords) :
    ∃ x : S64.Idx, cc0_transform_0 k0_off1_inb numel1_S1 pf i = ![(pf 0 x : BitVec 32).toNat, 0, 0] := ⟨_, rfl⟩

/-- A table all of whose words are below 64 satisfies the pipeline's side condition: plane `w < 64` of the
    `64` planes is inside the array, and an f32 transfer is word-exact. -/
theorem ok0_of_lt (pf : pre0.Contents (Elt F)) (h : ∀ x : S64.Idx, (pf 0 x : BitVec 32).toNat < 64) : ok0 pf := by
  intro i
  obtain ⟨x, e⟩ := transform0_eq pf i
  refine ⟨fun a => ?_, Or.inl rfl⟩
  rw [e]
  have hx := h x
  fin_cases a <;> simp [S1x2048x512, S64x2048x512] <;> omega

variable (m : (ℓ : Loc nD τ sig) → Buf (Elt F) ℓ)

/-- The table the region reads is the argsort of the negated lengths: the host operations before the region,
    read back at the table's buffer. -/
theorem tbl_eq : (tbl m 0 : IVec S64 32)
    = (Host.sort2 S64 0 comparator_i32_i32_d0 (negi (m (((0 : Dev nD) : Thread nD τ).loc main_arg2)))
        (iotaInDim S64 32 0)).2 := by
  unfold tbl
  show V m 0 main_v1 = _
  unfold V V0
  simp only [hostOps0, hostOps0_1, hostOps0_2, hostOps0_3, List.flatten_cons, List.flatten_nil, List.append_nil,
    List.cons_append, List.nil_append]
  after_results
  rfl

/-- Every word of the table is below 64. -/
theorem tbl_lt (x : S64.Idx) : (tbl m 0 x : BitVec 32).toNat < 64 := by
  have e := congrFun (tbl_eq m) x
  rw [e]
  exact Cert.LibSortIota.sort2_iota_snd_toNat_lt comparator_i32_i32_d0 _ x

/-- The pipeline's side condition, of every launch memory. -/
theorem ok : Ok m := ok0_of_lt (tbl m) (tbl_lt m)

end Cert.Kernel.Table

end
-- ==== Proof.KernelIdealTable.lean ====
import proofs.«410026_j11879879542307_1_alg».proof.Proof.Gen.KernelIdeal.Frame
import proofs.«410026_j11879879542307_1_alg».proof.Proof.LibSortIota

/-!
The prefetched table of the gather kernel is the program's own `argsort(-lengths)`: the second result of a
stable two-operand sort that carries the iota of 64 positions. Whatever `lengths` holds, each of its words is
therefore the number of a position, below 64, so the block `(table[i], 0, 0)` of one `2048 × 512` plane the
input window fetches at grid point `i` lies inside the `64 × 2048 × 512` array: the side condition under which
the pipeline runs holds of every launch memory, with no assumption on the inputs.
-/

set_option maxRecDepth 16384

noncomputable section

namespace Cert.KernelIdeal.Table

open Cert.KernelIdeal Cert.KernelIdeal.Gen
open Idealize.ShloMosaic Idealize.ShloMosaic.TcCoe Idealize.SL.Sem

variable {F : FTy → Type} [FloatOps F]

/-- The input window's index map at ANY contents `pf` of the table: the plane is the table's word at some
    position, the two inner block indices are zero. -/
theorem transform0_eq (pf : pre0.Contents (Elt F)) (i : grid0.Coords) :
    ∃ x : S64.Idx, cc0_transform_0 k0_off1_inb numel1_S1 pf i = ![(pf 0 x : BitVec 32).toNat, 0, 0] := ⟨_, rfl⟩

/-- A table all of whose words are below 64 satisfies the pipeline's side condition: plane `w < 64` of the
    `64` planes is inside the array, and an f32 transfer is word-exact. -/
theorem ok0_of_lt (pf : pre0.Contents (Elt F)) (h : ∀ x : S64.Idx, (pf 0 x : BitVec 32).toNat < 64) : ok0 pf := by
  intro i
  obtain ⟨x, e⟩ := transform0_eq pf i
  refine ⟨fun a => ?_, Or.inl rfl⟩
  rw [e]
  have hx := h x
  fin_cases a <;> simp [S1x2048x512, S64x2048x512] <;> omega

variable (m : (ℓ : Loc nD τ sig) → Buf (Elt F) ℓ)

/-- The table the region reads is the argsort of the negated lengths: the host operations before the region,
    read back at the table's buffer. -/
theorem tbl_eq : (tbl m 0 : IVec S64 32)
    = (Host.sort2 S64 0 comparator_i32_i32_d0 (negi (m (((0 : Dev nD) : Thread nD τ).loc main_arg2)))
        (iotaInDim S64 32 0)).2 := by
  unfold tbl
  show V m 0 main_v1 = _
  unfold V V0
  simp only [hostOps0, hostOps0_1, hostOps0_2, hostOps0_3, List.flatten_cons, List.flatten_nil, List.append_nil,
    List.cons_append, List.nil_append]
  after_results
  rfl

/-- Every word of the table is below 64. -/
theorem tbl_lt (x : S64.Idx) : (tbl m 0 x : BitVec 32).toNat < 64 := by
  have e := congrFun (tbl_eq m) x
  rw [e]
  exact Cert.LibSortIota.sort2_iota_snd_toNat_lt comparator_i32_i32_d0 _ x

/-- The pipeline's side condition, of every launch memory. -/
theorem ok : Ok m := ok0_of_lt (tbl m) (tbl_lt m)

end Cert.KernelIdeal.Table

end
-- ==== Proof.KernelIdealRegion.lean ====
import proofs.«410026_j11879879542307_1_alg».proof.Proof.KernelIdealTable
import Idealize.ShloMosaic.Lib.Pipeline.Value
import Idealize.ShloMosaic.Lib.ValueIdx

/-!
The array the gather kernel leaves in its output, as one function of the input array and the table.

At grid point `t` the input window fetches the block `(table[t], 0, 0)` of one `2048 × 512` plane, the body copies
the fetched plane to the output's staging buffer with one whole store, and the output window writes it back as
block `(t, 0, 0)`. So point `t` writes plane `table[t]` of the input over plane `t` of the output; the 64 points
write the 64 planes, which tile the output array, and the array ends holding `gathered`: plane `k` is plane
`table[k]` of the input, the place inside the plane kept. Every fact about the windows' index maps is proved with
the table's contents a variable, and the table the launch memory holds is put in last.
-/

set_option maxRecDepth 16384

noncomputable section

namespace Cert.KernelIdeal.Region

open Cert.KernelIdeal Cert.KernelIdeal.Gen
open Idealize.ShloMosaic Idealize.ShloMosaic.TcCoe Idealize.SL.Sem Idealize.ShloMosaic.Tactic
open Idealize.ShloMosaic.ValueIdx
open Idealize.ShloMosaic.Pipeline (Dat)

variable {F : FTy → Type} [FloatOps F]

/-- The block offset of the body's one load and one store is zero on every axis. -/
theorem hz : (![0, 0, 0] : Fin 3 → Nat) = fun _ => 0 := by
  funext a; fin_cases a <;> rfl

/-- What the body leaves in the output's staging buffer is the block it loaded: one whole store of the loaded
    value. -/
theorem out_eq (c : Dev nD) (i : grid0.Coords) (arg2 : Memref sig .tc .vmem S1x2048x512 .f32) (harg2 : arg2.IsWhole)
    (arg3 : Memref sig .tc .vmem S1x2048x512 .f32) (harg3 : arg3.IsWhole)
    (x0 : Vec F S1x2048x512 .f32) (xt0 : TbBuf0 (F := F) c tbM0_0) :
    out0_A_1 c i arg2 harg2 arg3 harg3 x0 xt0 = x0 := by
  unfold out0_A_1
  rw [View.read_writes_eq_canon _ _ _ (cover0_A_1 c i arg2 harg2 arg3 harg3 x0 xt0)]
  unfold kernelRun0_A
  dsimp only
  sl_unfold_words
  rw [View.canon_unit_zero hz]
  simp only [View.readAt_eq_ld, Memref.IsWhole.read_unread, View.ld_unit_zero (S := S1x2048x512) hz]

/-- The windows' block indices at a point are the printed index maps at the point's coordinates, at any contents
    of the table. -/
theorem idx1_eq (a : (pcfg0 (F := F)).Adm) (t : Fin (cfg0 a).N) : ((cfg0 a).win 1).index t = cc0_transform_1 (grid0.coords t) := rfl
theorem idx0_eq (a : (pcfg0 (F := F)).Adm) (t : Fin (cfg0 a).N) : ((cfg0 a).win 0).index t = cc0_transform_0 k0_off1_inb numel1_S1 a.1 (grid0.coords t) := rfl

/-- The table position the input window's index map reads at grid coordinates `i`. -/
def tix (i : grid0.Coords) : S64.Idx :=
  (Rect.unit (s := S64) ![(Scalar.indexCast (BitVec.ofNat 32 (i 0).val)).toNat] S1.size (k0_off1_inb i)).emb
    (Shape.Idx.first (numel1_S1.symm ▸ Nat.one_pos))

/-- The input window's index map: the table's word at that position, then zeros. -/
theorem transform0_at (pf : pre0.Contents (Elt F)) (i : grid0.Coords) :
    cc0_transform_0 k0_off1_inb numel1_S1 pf i = ![(pf 0 (tix i) : BitVec 32).toNat, 0, 0] := rfl

/-- At grid point `t` the position read is `t`. -/
theorem tix_coords : ∀ t : Fin grid0.N, ((tix (grid0.coords t)) 0).val = t.val := by decide +kernel

/-- The grid has 64 points. -/
theorem N_lt (t : Fin grid0.N) : t.val < 64 := by
  have h1 := t.isLt
  have h2 : grid0.N = 64 := N_0
  omega

theorem tix_eq (t : Fin grid0.N) : tix (grid0.coords t) = ix1 ⟨t.val, N_lt t⟩ := by
  rw [eq_ix1 (tix (grid0.coords t))]
  exact congrArg ix1 (Fin.ext (tix_coords t))

/-- The output window's index map at grid point `t`: block `(t, 0, 0)`. -/
theorem transform1_at : ∀ t : Fin grid0.N, cc0_transform_1 (grid0.coords t) = ![t.val, 0, 0] := by decide +kernel

/-- The array index of element `y` of the output window's block at point `t`: plane `t`, the same place inside it. -/
theorem emb1 (a : (pcfg0 (F := F)).Adm) (t : Fin (cfg0 a).N) (y : S1x2048x512.Idx) :
    (((cfg0 a).win 1).blk t).view.emb y = ix3 ⟨t.val, N_lt t⟩ (y 1) (y 2) := by
  funext a'
  apply Fin.ext
  have e := transform1_at t
  match a' with
  | ⟨0, _⟩ =>
    show ((cfg0 a).win 1).index t (0 : Fin 3) * 1 + 1 * (y 0).val = t.val
    have hy : (y 0).val < 1 := (y 0).isLt
    have e0 : ((cfg0 a).win 1).index t (0 : Fin 3) = t.val := congrFun e 0
    omega
  | ⟨1, _⟩ =>
    show ((cfg0 a).win 1).index t (1 : Fin 3) * 2048 + 1 * (y 1).val = (y 1).val
    have e1 : ((cfg0 a).win 1).index t (1 : Fin 3) = 0 := congrFun e 1
    omega
  | ⟨2, _⟩ =>
    show ((cfg0 a).win 1).index t (2 : Fin 3) * 512 + 1 * (y 2).val = (y 2).val
    have e2 : ((cfg0 a).win 1).index t (2 : Fin 3) = 0 := congrFun e 2
    omega

/-- The array index of element `y` of the input window's block at point `t`: the plane the table names at
    position `t`, the same place inside it. -/
theorem emb0 (a : (pcfg0 (F := F)).Adm) (pf : pre0.Contents (Elt F)) (hpf : a.1 = pf)
    (h : ∀ x : S64.Idx, (pf 0 x : BitVec 32).toNat < 64) (t : Fin (cfg0 a).N) (y : S1x2048x512.Idx) :
    (((cfg0 a).win 0).blk t).view.emb y
      = ix3 ⟨(pf 0 (ix1 ⟨t.val, N_lt t⟩) : BitVec 32).toNat, h _⟩ (y 1) (y 2) := by
  subst hpf
  funext a'
  apply Fin.ext
  have e : ((cfg0 a).win 0).index t = ![(a.1 0 (ix1 ⟨t.val, N_lt t⟩) : BitVec 32).toNat, 0, 0] := by
    rw [idx0_eq, transform0_at, tix_eq t]
  match a' with
  | ⟨0, _⟩ =>
    show ((cfg0 a).win 0).index t (0 : Fin 3) * 1 + 1 * (y 0).val = (a.1 0 (ix1 ⟨t.val, N_lt t⟩) : BitVec 32).toNat
    have hy : (y 0).val < 1 := (y 0).isLt
    have e0 : ((cfg0 a).win 0).index t (0 : Fin 3) = (a.1 0 (ix1 ⟨t.val, N_lt t⟩) : BitVec 32).toNat := congrFun e (0 : Fin 3)
    generalize (a.1 0 (ix1 ⟨t.val, N_lt t⟩) : BitVec 32).toNat = k at e0
    omega
  | ⟨1, _⟩ =>
    show ((cfg0 a).win 0).index t (1 : Fin 3) * 2048 + 1 * (y 1).val = (y 1).val
    have e1 : ((cfg0 a).win 0).index t (1 : Fin 3) = 0 := congrFun e (1 : Fin 3)
    omega
  | ⟨2, _⟩ =>
    show ((cfg0 a).win 0).index t (2 : Fin 3) * 512 + 1 * (y 2).val = (y 2).val
    have e2 : ((cfg0 a).win 0).index t (2 : Fin 3) = 0 := congrFun e (2 : Fin 3)
    omega

variable (m : (ℓ : Loc nD τ sig) → Buf (Elt F) ℓ)

/-- The plane of the input the table names for output plane `k`. -/
def plane (k : Fin 64) : Fin 64 := ⟨(tbl m 0 (ix1 k) : BitVec 32).toNat, Table.tbl_lt m _⟩

/-- What the region leaves in its output array: plane `k` is plane `table[k]` of the input. -/
def gathered (c : Dev nD) : S64x2048x512.Idx → Elt F .f32 :=
  fun j => V m c main_arg0 (ix3 (plane m (j 0)) (j 1) (j 2))

/-- `gathered` at an index given by its coordinates. -/
theorem gathered_ix3 (c : Dev nD) (k : Fin 64) (p : Fin 2048) (q : Fin 512) :
    gathered m c (ix3 k p q) = V m c main_arg0 (ix3 (plane m k) p q) := by
  unfold gathered
  rfl

set_option maxHeartbeats 400000 in
/-- WHAT POINT `t` WRITES BACK is block `t` of `gathered`: the copied input block, read where the table sends it. -/
theorem flushed_eq (hO : Ok m) (c : Dev nD) (t : Fin (cfgM m hO).N) :
    (dats m hO 0 c).flushed 1 t = (((cfgM m hO).win 1).blk t).view.read (Elt F) (gathered m c) := by
  show ((cfgM m hO).win 1).cut ((cfgM m hO).grid.coords t) ((dats m hO 0 c).after 1 t) = _
  rw [after0_1]
  unfold outsAt0
  funext y
  refine (congrFun (out_eq c (grid0.coords t) (ms0_0 m hO t) (hs0_0 m hO t) (ms0_1 m hO t) (hs0_1 m hO t) (iblk m hO c 0 t) (tbl m 0)) y).trans ?_
  show V m c main_arg0 ((((cfgM m hO).win 0).blk t).view.emb y) = gathered m c ((((cfgM m hO).win 1).blk t).view.emb y)
  rw [emb0 (adm m hO) (tbl m) rfl (Table.tbl_lt m) t y, emb1 (adm m hO) t y]
  exact (gathered_ix3 m c ⟨t.val, N_lt t⟩ _ _).symm

/-- An index of the array is in point `t`'s output block iff each coordinate is in the block's range. -/
theorem mem_blk1 (a : (pcfg0 (F := F)).Adm) (t : Fin (cfg0 a).N) (i : S64x2048x512.Idx) :
    i ∈ (((cfg0 a).win 1).blk t).view.set ↔ ∀ a' : Fin 3, ((cfg0 a).win 1).index t a' * S1x2048x512.size a' ≤ (i a').val
      ∧ (i a').val < ((cfg0 a).win 1).index t a' * S1x2048x512.size a' + S1x2048x512.size a' := by
  have h1 : ((View.whole main_v10).slice (((cfg0 a).win 1).rect t)).set = (((cfg0 a).win 1).rect t).set :=
    View.set_slice_whole main_v10 _
  show i ∈ ((View.whole main_v10).slice (((cfg0 a).win 1).rect t)).set ↔ _
  exact (iff_of_eq (congrArg (fun s => i ∈ s) h1)).trans Rect.mem_set_unit

/-- The output's blocks tile the array: index `i` lies in the block written back at point `i 0`. -/
theorem cover (hO : Ok m) (i : S64x2048x512.Idx) :
    ∃ t : Fin (cfgM m hO).N, ((cfgM m hO).win 1).flush t = true ∧ i ∈ (((cfgM m hO).win 1).blk t).view.set := by
  have h0 : (i 0).val < 64 := (i 0).isLt
  have h1 : (i 1).val < 2048 := (i 1).isLt
  have h2 : (i 2).val < 512 := (i 2).isLt
  have hN : grid0.N = 64 := N_0
  refine ⟨⟨(i 0).val, by show (i 0).val < grid0.N; omega⟩, flush0_1 (adm m hO) _, ?_⟩
  rw [mem_blk1]
  have e := transform1_at ⟨(i 0).val, by omega⟩
  intro a'
  match a' with
  | ⟨0, _⟩ =>
    have e0 : ((cfgM m hO).win 1).index ⟨(i 0).val, by show (i 0).val < grid0.N; omega⟩ (0 : Fin 3) = (i 0).val := congrFun e (0 : Fin 3)
    show ((cfgM m hO).win 1).index _ (0 : Fin 3) * 1 ≤ (i 0).val ∧ (i 0).val < ((cfgM m hO).win 1).index _ (0 : Fin 3) * 1 + 1
    omega
  | ⟨1, _⟩ =>
    have e1 : ((cfgM m hO).win 1).index ⟨(i 0).val, by show (i 0).val < grid0.N; omega⟩ (1 : Fin 3) = 0 := congrFun e (1 : Fin 3)
    show ((cfgM m hO).win 1).index _ (1 : Fin 3) * 2048 ≤ (i 1).val ∧ (i 1).val < ((cfgM m hO).win 1).index _ (1 : Fin 3) * 2048 + 2048
    omega
  | ⟨2, _⟩ =>
    have e2 : ((cfgM m hO).win 1).index ⟨(i 0).val, by show (i 0).val < grid0.N; omega⟩ (2 : Fin 3) = 0 := congrFun e (2 : Fin 3)
    show ((cfgM m hO).win 1).index _ (2 : Fin 3) * 512 ≤ (i 2).val ∧ (i 2).val < ((cfgM m hO).win 1).index _ (2 : Fin 3) * 512 + 512
    omega

/-- THE ARRAY THE REGION LEAVES: plane `k` of the output is plane `table[k]` of the input. -/
theorem final (hO : Ok m) (c : Dev nD) : (dats m hO 0 c).arrAt 1 (cfgM m hO).N = gathered m c :=
  (dats m hO 0 c).arrAt_eq_of_cover 1 (gathered m c) (fun t _ => flushed_eq m hO c t) (cover m hO)

end Cert.KernelIdeal.Region
end
-- ==== Proof.Chain.lean ====
import proofs.«410026_j11879879542307_1_alg».proof.Proof.Gen.KernelIdeal

/-!
The host arithmetic the kernel's program and the reference share, as named functions of the two things it is
applied to: the vector `len` of 64 lengths, and the batch `x` of 64 planes already permuted.

* `sortedIdx len` is `argsort(-len)`, the permutation that lists the sequences by descending length (stable),
  `unsortedIdx len` its argsort, and `sortedLen len` the lengths read through it (jnp's `len[sortedIdx]`: the
  index wrapped when negative, made a column, gathered).
* `batchSizes sl`: for each of the 2048 time steps the number of sequences longer than it.
* `offsets sl`: the exclusive prefix sums of the batch sizes (a cumulative sum as a windowed sum over the
  left-padded vector, shifted right behind a zero).
* `dest sl`: the packed row of element (sequence `b`, step `t`): `offsets[t] + b` where `t` is inside the
  sequence, and the spare row `131072` elsewhere.
* `packedAt x d`: the rows of `x` scattered into a zero table of `131073` rows at the destinations `d` (wrapped when
  negative), the spare row dropped; `packed x sl` is `packedAt x (dest sl)`.
-/

noncomputable section

namespace Cert.KernelIdeal.Chain

open Cert.KernelIdeal Cert.KernelIdeal.Gen
open Idealize.ShloMosaic

variable {F : FTy → Type} [FloatOps F]

/-- `argsort(-len)`: the second result of the stable sort of (negated lengths, iota) by the first. -/
def sortedIdx (len : IVec S64 32) : IVec S64 32 :=
  (Host.sort2 S64 0 comparator_i32_i32_d0 (negi len) (iotaInDim S64 32 0)).2

/-- `argsort(sortedIdx)`: the inverse permutation. -/
def unsortedIdx (len : IVec S64 32) : IVec S64 32 :=
  (Host.sort2 S64 0 comparator_i32_i32_d0 (sortedIdx len) (iotaInDim S64 32 0)).2

/-- jnp's normalisation of an index vector into an axis of 64: add 64 where the word is negative. -/
def wrap (si : IVec S64 32) : IVec S64 32 :=
  select (cmpi .slt si (broadcastInDim S64 ![] bcast_S_S64 (constantI S_ 32 0#32)))
    (addi si (broadcastInDim S64 ![] bcast_S_S64 (constantI S_ 32 64#32))) si

/-- The normalised permutation as the 64 × 1 column a gather reads its start indices from. -/
def idxCol (len : IVec S64 32) : IVec S64x1 32 :=
  broadcastInDim S64x1 ![0] bcast_S64_S64x1_0 (wrap (sortedIdx len))

/-- The lengths in descending order: `len[sortedIdx]`. -/
def sortedLen (len : IVec S64 32) : IVec S64 32 :=
  Host.gather gather_S64_S64x1_S64_n_0_n_n_0_1_1 len (idxCol len)

/-- The time steps `0 … 2047` along the columns of a 64 × 2048 table. -/
def steps : IVec S64x2048 32 :=
  broadcastInDim S64x2048 ![0, 1] bcast_S1x2048_S64x2048_0_1
    (broadcastInDim S1x2048 ![1] bcast_S2048_S1x2048_1 (iotaInDim S2048 32 0))

/-- A vector of 64 words along the rows of a 64 × 2048 table. -/
def rows (v : IVec S64 32) : IVec S64x2048 32 :=
  broadcastInDim S64x2048 ![0, 1] bcast_S64x1_S64x2048_0_1 (broadcastInDim S64x1 ![0] bcast_S64_S64x1_0 v)

/-- For each time step, the number of sequences longer than it. -/
def batchSizes (sl : IVec S64 32) : IVec S2048 32 :=
  Host.reduce IntOp.addi (extui 32 (cmpi .sgt (rows sl) steps) natLt_1_32) (constantI S_ 32 0#32)
    reducesTo_S64x2048_S2048_d0 h_S_

/-- The inclusive prefix sums of a vector of 2048 words: a windowed sum of width 2048 over the vector padded
    with 2047 zeros on the left. -/
def cumsum (v : IVec S2048 32) : IVec S2048 32 :=
  Host.reduceWindow IntOp.addi ![2048] ![1] ![2047] ![0] v (broadcastInDim S_ ![] bcast_S_S_ (constantI S_ 32 0#32))
    reduceWindows_S2048_S2048_w2048s1p2047_0 h_S_

/-- The exclusive prefix sums of the batch sizes: a zero, then the inclusive sums but the last. -/
def offsets (sl : IVec S64 32) : IVec S2048 32 :=
  concatenate S2048 0
    [⟨S1, broadcastInDim S1 ![] bcast_S_S1 (constantI S_ 32 0#32)⟩,
     ⟨S2047, extractStridedSlice S2047 ![0] (cumsum (batchSizes sl)) slices_S2048_S2047_0⟩]
    concatenates_S1_S2047_S2048_d0

/-- The packed row of each (sequence, step): offset plus batch position inside the sequence, the spare row
    `131072` past its end. -/
def dest (sl : IVec S64 32) : IVec S64x2048 32 :=
  select (cmpi .slt steps (rows sl))
    (addi (broadcastInDim S64x2048 ![0, 1] bcast_S1x2048_S64x2048_0_1
        (broadcastInDim S1x2048 ![1] bcast_S2048_S1x2048_1 (offsets sl)))
      (rows (iotaInDim S64 32 0)))
    (broadcastInDim S64x2048 ![] bcast_S_S64x2048 (id (constantI S_ 32 131072#32)))

/-- A table of destinations flattened, normalised into an axis of 131073 rows (add 131073 where negative), as the
    column a scatter reads. -/
def destColOf (d : IVec S64x2048 32) : IVec S131072x1 32 :=
  broadcastInDim S131072x1 ![0] bcast_S131072_S131072x1_0
    (select
      (cmpi .slt (shapeCast S131072 d shapeCasts_S64x2048_S131072)
        (broadcastInDim S131072 ![] bcast_S_S131072 (constantI S_ 32 0#32)))
      (addi (shapeCast S131072 d shapeCasts_S64x2048_S131072)
        (broadcastInDim S131072 ![] bcast_S_S131072 (constantI S_ 32 131073#32)))
      (shapeCast S131072 d shapeCasts_S64x2048_S131072))

/-- The scatter and the slice by themselves: the rows `u` written into the table `a` at the rows the column `i`
    names (a later row replacing an earlier one at the same index), the last row of the table dropped. -/
def scatterRows (a : (⟨S131073x512, .f32⟩ : BufTy).Contents (Elt F)) (i : (⟨S131072x1, .i32⟩ : BufTy).Contents (Elt F))
    (u : (⟨S131072x512, .f32⟩ : BufTy).Contents (Elt F)) : (⟨S131072x512, .f32⟩ : BufTy).Contents (Elt F) :=
  extractStridedSlice (α := Elt F .f32) S131072x512 ![0, 0]
    (Host.scatter (α := Elt F .f32) scatter_S131073x512_S131072x1_S131072x512_1_0_0_1 (fun _ b => b) a i u)
    slices_S131073x512_S131072x512_0_0

/-- The rows of `x` written into a zero table of 131073 rows at the destinations `d`, the spare row dropped. -/
def packedAt (x : FVec F S64x2048x512 .f32) (d : IVec S64x2048 32) : FVec F S131072x512 .f32 :=
  scatterRows (broadcastInDim S131073x512 ![] bcast_S_S131073x512 (constant S_ .f32 0x00000000#32))
    (destColOf d)
    (shapeCast S131072x512 x shapeCasts_S64x2048x512_S131072x512)

/-- The packed sequence buffer: the rows of `x` at the destinations the sorted lengths `sl` give. -/
def packed (x : FVec F S64x2048x512 .f32) (sl : IVec S64 32) : FVec F S131072x512 .f32 :=
  packedAt x (dest sl)

end Cert.KernelIdeal.Chain

end
-- ==== Proof.KernelIdealValue.lean ====
import proofs.«410026_j11879879542307_1_alg».proof.Proof.KernelIdealRegion
import proofs.«410026_j11879879542307_1_alg».proof.Proof.Chain
import Idealize.ShloMosaic.Lib.StableHlo.Run

/-!
The kernel program's results as named functions of its arguments.

Around the gather kernel the program is host arithmetic: before it the permutation `argsort(-lengths)`, its inverse
and the sorted lengths; after it the batch sizes, their prefix sums, the destination of every (sequence, step) pair
and the scatter of the gathered rows. The lines after the kernel are read stretch by stretch: each stretch's results
as functions of what it finds, for ANY contents it may find, and what it leaves untouched; the stretches are then
chained, and the whole is the shared arithmetic of `Chain` applied to the gathered planes and the sorted lengths.
-/

set_option maxRecDepth 16384

noncomputable section

namespace Cert.KernelIdeal.Value

open Cert.KernelIdeal Cert.KernelIdeal.Gen
open Idealize.ShloMosaic Idealize.ShloMosaic.TcCoe Idealize.SL.Sem Idealize.ShloMosaic.StableHlo

variable {F : FTy → Type} [FloatOps F]

/-- The fold of a concatenated line is the fold of its second part from the fold of its first. -/
theorem after_append (A B : List (HloOp τ sig (Elt F))) (V : Valuation τ sig (Elt F)) :
    after (A ++ B) V = after B (after A V) := by
  induction A generalizing V with
  | nil => rfl
  | cons op A ih => exact ih _

/-- The last stretch but its scatter and slice: the zero table, the two reshapes, the destinations normalised and
    made a column. -/
abbrev first12 : List (HloOp τ sig (Elt F)) :=
  [ StableHlo.nullary main_cst (constant S_ .f32 0x00000000#32),
    StableHlo.unary main_cst main_v35 (broadcastInDim S131073x512 ![] bcast_S_S131073x512 : (⟨S_, .f32⟩ : BufTy).Contents (Elt F) → (⟨S131073x512, .f32⟩ : BufTy).Contents (Elt F)),
    StableHlo.reshape main_v34 main_v36 rfl shapeCasts_S64x2048_S131072,
    StableHlo.reshape main_v10 main_v37 rfl shapeCasts_S64x2048x512_S131072x512,
    StableHlo.nullary main_c_4 (constantI S_ 32 0#32),
    StableHlo.unary main_c_4 main_v38 (broadcastInDim S131072 ![] bcast_S_S131072 : (⟨S_, .i32⟩ : BufTy).Contents (Elt F) → (⟨S131072, .i32⟩ : BufTy).Contents (Elt F)),
    StableHlo.binary main_v36 main_v38 main_v39 (cmpi .slt : (⟨S131072, .i32⟩ : BufTy).Contents (Elt F) → (⟨S131072, .i32⟩ : BufTy).Contents (Elt F) → (⟨S131072, .i1⟩ : BufTy).Contents (Elt F)),
    StableHlo.nullary main_c_5 (constantI S_ 32 131073#32),
    StableHlo.unary main_c_5 main_v40 (broadcastInDim S131072 ![] bcast_S_S131072 : (⟨S_, .i32⟩ : BufTy).Contents (Elt F) → (⟨S131072, .i32⟩ : BufTy).Contents (Elt F)),
    StableHlo.binary main_v36 main_v40 main_v41 (addi : (⟨S131072, .i32⟩ : BufTy).Contents (Elt F) → (⟨S131072, .i32⟩ : BufTy).Contents (Elt F) → (⟨S131072, .i32⟩ : BufTy).Contents (Elt F)),
    StableHlo.ternary main_v39 main_v41 main_v36 main_v42 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v42 main_v43 (broadcastInDim S131072x1 ![0] bcast_S131072_S131072x1_0 : (⟨S131072, .i32⟩ : BufTy).Contents (Elt F) → (⟨S131072x1, .i32⟩ : BufTy).Contents (Elt F)) ]

/-- The scatter of the rows and the slice that drops the spare row. -/
abbrev lastTwo : List (HloOp τ sig (Elt F)) :=
  [ StableHlo.ternary main_v35 main_v43 main_v37 main_v44 ((fun x i u => Host.scatter scatter_S131073x512_S131072x1_S131072x512_1_0_0_1 (fun _ b => b) x i u) : (⟨S131073x512, .f32⟩ : BufTy).Contents (Elt F) → (⟨S131072x1, .i32⟩ : BufTy).Contents (Elt F) → (⟨S131072x512, .f32⟩ : BufTy).Contents (Elt F) → (⟨S131073x512, .f32⟩ : BufTy).Contents (Elt F)),
    StableHlo.unary main_v44 main_v45 ((extractStridedSlice S131072x512 ![0, 0] · slices_S131073x512_S131072x512_0_0) : (⟨S131073x512, .f32⟩ : BufTy).Contents (Elt F) → (⟨S131072x512, .f32⟩ : BufTy).Contents (Elt F)) ]

/-- The lines after the region are six stretches, one after the other. -/
theorem tail_split : (List.flatten [hostOps1, hostOps1_1, hostOps1_2, hostOps1_3, hostOps1_4] : List (HloOp τ sig (Elt F)))
    = hostOps1 ++ (hostOps1_1 ++ (hostOps1_2 ++ (hostOps1_3 ++ (first12 ++ lastTwo)))) := by
  simp only [List.flatten_cons, List.flatten_nil, List.append_nil]
  rfl

theorem after_tail (W : Valuation τ sig (Elt F)) :
    after (List.flatten [hostOps1, hostOps1_1, hostOps1_2, hostOps1_3, hostOps1_4]) W
      = after lastTwo (after first12 (after hostOps1_3 (after hostOps1_2 (after hostOps1_1 (after hostOps1 W))))) := by
  rw [tail_split, after_append, after_append, after_append, after_append, after_append]

/-! ## What each stretch keeps: a buffer none of its operations writes -/

local macro "keep_tac" : tactic =>
  `(tactic| exact after_of_forall_not_mem _ _ (List.forall_iff_forall_mem.mp (by
      simp only [hostOps1, hostOps1_1, hostOps1_2, hostOps1_3, first12, lastTwo, List.Forall, nullary_writes, unary_writes,
        binary_writes, ternary_writes, quaternary_writes, reshape_writes, binaryIndexed_writes, Finset.mem_singleton]
      repeat' apply And.intro
      all_goals exact devRef_ne_of_ne (by decide))))

theorem k_hostOps1_v9 (W : Valuation τ sig (Elt F)) : after hostOps1 W (Proc.devRef .tc main_v9) = W (Proc.devRef .tc main_v9) := by keep_tac
theorem k_hostOps1_v10 (W : Valuation τ sig (Elt F)) : after hostOps1 W (Proc.devRef .tc main_v10) = W (Proc.devRef .tc main_v10) := by keep_tac
theorem k_hostOps1_v1 (W : Valuation τ sig (Elt F)) : after hostOps1 W (Proc.devRef .tc main_v1) = W (Proc.devRef .tc main_v1) := by keep_tac
theorem k_hostOps1_v2 (W : Valuation τ sig (Elt F)) : after hostOps1 W (Proc.devRef .tc main_v2) = W (Proc.devRef .tc main_v2) := by keep_tac
theorem k_hostOps1_1_v11 (W : Valuation τ sig (Elt F)) : after hostOps1_1 W (Proc.devRef .tc main_v11) = W (Proc.devRef .tc main_v11) := by keep_tac
theorem k_hostOps1_1_v9 (W : Valuation τ sig (Elt F)) : after hostOps1_1 W (Proc.devRef .tc main_v9) = W (Proc.devRef .tc main_v9) := by keep_tac
theorem k_hostOps1_1_v19 (W : Valuation τ sig (Elt F)) : after hostOps1_1 W (Proc.devRef .tc main_v19) = W (Proc.devRef .tc main_v19) := by keep_tac
theorem k_hostOps1_1_v10 (W : Valuation τ sig (Elt F)) : after hostOps1_1 W (Proc.devRef .tc main_v10) = W (Proc.devRef .tc main_v10) := by keep_tac
theorem k_hostOps1_1_v18 (W : Valuation τ sig (Elt F)) : after hostOps1_1 W (Proc.devRef .tc main_v18) = W (Proc.devRef .tc main_v18) := by keep_tac
theorem k_hostOps1_1_v1 (W : Valuation τ sig (Elt F)) : after hostOps1_1 W (Proc.devRef .tc main_v1) = W (Proc.devRef .tc main_v1) := by keep_tac
theorem k_hostOps1_1_v2 (W : Valuation τ sig (Elt F)) : after hostOps1_1 W (Proc.devRef .tc main_v2) = W (Proc.devRef .tc main_v2) := by keep_tac
theorem k_hostOps1_2_v10 (W : Valuation τ sig (Elt F)) : after hostOps1_2 W (Proc.devRef .tc main_v10) = W (Proc.devRef .tc main_v10) := by keep_tac
theorem k_hostOps1_2_v18 (W : Valuation τ sig (Elt F)) : after hostOps1_2 W (Proc.devRef .tc main_v18) = W (Proc.devRef .tc main_v18) := by keep_tac
theorem k_hostOps1_2_v1 (W : Valuation τ sig (Elt F)) : after hostOps1_2 W (Proc.devRef .tc main_v1) = W (Proc.devRef .tc main_v1) := by keep_tac
theorem k_hostOps1_2_v2 (W : Valuation τ sig (Elt F)) : after hostOps1_2 W (Proc.devRef .tc main_v2) = W (Proc.devRef .tc main_v2) := by keep_tac
theorem k_hostOps1_3_v10 (W : Valuation τ sig (Elt F)) : after hostOps1_3 W (Proc.devRef .tc main_v10) = W (Proc.devRef .tc main_v10) := by keep_tac
theorem k_hostOps1_3_v18 (W : Valuation τ sig (Elt F)) : after hostOps1_3 W (Proc.devRef .tc main_v18) = W (Proc.devRef .tc main_v18) := by keep_tac
theorem k_hostOps1_3_v1 (W : Valuation τ sig (Elt F)) : after hostOps1_3 W (Proc.devRef .tc main_v1) = W (Proc.devRef .tc main_v1) := by keep_tac
theorem k_hostOps1_3_v2 (W : Valuation τ sig (Elt F)) : after hostOps1_3 W (Proc.devRef .tc main_v2) = W (Proc.devRef .tc main_v2) := by keep_tac
theorem k_first12_v18 (W : Valuation τ sig (Elt F)) : after first12 W (Proc.devRef .tc main_v18) = W (Proc.devRef .tc main_v18) := by keep_tac
theorem k_first12_v1 (W : Valuation τ sig (Elt F)) : after first12 W (Proc.devRef .tc main_v1) = W (Proc.devRef .tc main_v1) := by keep_tac
theorem k_first12_v2 (W : Valuation τ sig (Elt F)) : after first12 W (Proc.devRef .tc main_v2) = W (Proc.devRef .tc main_v2) := by keep_tac
theorem k_lastTwo_v18 (W : Valuation τ sig (Elt F)) : after lastTwo W (Proc.devRef .tc main_v18) = W (Proc.devRef .tc main_v18) := by keep_tac
theorem k_lastTwo_v1 (W : Valuation τ sig (Elt F)) : after lastTwo W (Proc.devRef .tc main_v1) = W (Proc.devRef .tc main_v1) := by keep_tac
theorem k_lastTwo_v2 (W : Valuation τ sig (Elt F)) : after lastTwo W (Proc.devRef .tc main_v2) = W (Proc.devRef .tc main_v2) := by keep_tac

/-! ## What each stretch computes, from any contents -/

attribute [local irreducible] Host.sort2 Host.gather Host.scatter Host.reduce Host.reduceWindow concatenate in
set_option maxHeartbeats 1000000 in
/-- The first stretch: the batch sizes of the sorted lengths, -/
theorem s1_v18 (W : Valuation τ sig (Elt F)) :
    after hostOps1 W (Proc.devRef .tc main_v18) = Chain.batchSizes (W (Proc.devRef .tc main_v9)) := by
  simp only [hostOps1, after_cons, after_nil]
  rfl

attribute [local irreducible] Host.sort2 Host.gather Host.scatter Host.reduce Host.reduceWindow concatenate in
set_option maxHeartbeats 1000000 in
/-- a leading zero, -/
theorem s1_v19 (W : Valuation τ sig (Elt F)) :
    after hostOps1 W (Proc.devRef .tc main_v19) = broadcastInDim S1 ![] bcast_S_S1 (constantI S_ 32 0#32) := by
  simp only [hostOps1, after_cons, after_nil]
  rfl

attribute [local irreducible] Host.sort2 Host.gather Host.scatter Host.reduce Host.reduceWindow concatenate in
set_option maxHeartbeats 1000000 in
/-- and the time steps. -/
theorem s1_v11 (W : Valuation τ sig (Elt F)) :
    after hostOps1 W (Proc.devRef .tc main_v11) = iotaInDim S2048 32 0 := by
  simp only [hostOps1, after_cons, after_nil]
  rfl

attribute [local irreducible] Host.sort2 Host.gather Host.scatter Host.reduce Host.reduceWindow concatenate in
set_option maxHeartbeats 1000000 in
/-- The second stretch: the inclusive prefix sums. -/
theorem s2_v20 (W : Valuation τ sig (Elt F)) :
    after hostOps1_1 W (Proc.devRef .tc main_v20) = Chain.cumsum (W (Proc.devRef .tc main_v18)) := by
  simp only [hostOps1_1, after_cons, after_nil]
  rfl

attribute [local irreducible] Host.sort2 Host.gather Host.scatter Host.reduce Host.reduceWindow concatenate in
set_option maxHeartbeats 1000000 in
/-- The third stretch: which (sequence, step) pairs are inside their sequence, -/
theorem s3_v28 (W : Valuation τ sig (Elt F)) :
    after hostOps1_2 W (Proc.devRef .tc main_v28)
      = cmpi .slt (broadcastInDim S64x2048 ![0, 1] bcast_S1x2048_S64x2048_0_1
            (broadcastInDim S1x2048 ![1] bcast_S2048_S1x2048_1 (W (Proc.devRef .tc main_v11))))
          (Chain.rows (W (Proc.devRef .tc main_v9))) := by
  simp only [hostOps1_2, after_cons, after_nil]
  rfl

attribute [local irreducible] Host.sort2 Host.gather Host.scatter Host.reduce Host.reduceWindow concatenate in
set_option maxHeartbeats 1000000 in
/-- the offset of the step plus the batch position, -/
theorem s3_v33 (W : Valuation τ sig (Elt F)) :
    after hostOps1_2 W (Proc.devRef .tc main_v33)
      = addi (broadcastInDim S64x2048 ![0, 1] bcast_S1x2048_S64x2048_0_1
            (broadcastInDim S1x2048 ![1] bcast_S2048_S1x2048_1
              (concatenate S2048 0
                [⟨S1, W (Proc.devRef .tc main_v19)⟩,
                 ⟨S2047, extractStridedSlice S2047 ![0] (W (Proc.devRef .tc main_v20)) slices_S2048_S2047_0⟩]
                concatenates_S1_S2047_S2048_d0)))
          (Chain.rows (iotaInDim S64 32 0)) := by
  simp only [hostOps1_2, after_cons, after_nil]
  rfl

attribute [local irreducible] Host.sort2 Host.gather Host.scatter Host.reduce Host.reduceWindow concatenate in
set_option maxHeartbeats 1000000 in
/-- and the number of the spare row. -/
theorem s3_c3 (W : Valuation τ sig (Elt F)) :
    after hostOps1_2 W (Proc.devRef .tc main_c_3) = constantI S_ 32 131072#32 := by
  simp only [hostOps1_2, after_cons, after_nil]
  rfl

attribute [local irreducible] Host.sort2 Host.gather Host.scatter Host.reduce Host.reduceWindow concatenate in
set_option maxHeartbeats 1000000 in
/-- The fourth stretch: the destination, the spare row where the pair is outside its sequence. -/
theorem s4_v34 (W : Valuation τ sig (Elt F)) :
    after hostOps1_3 W (Proc.devRef .tc main_v34)
      = select (W (Proc.devRef .tc main_v28)) (W (Proc.devRef .tc main_v33))
          (broadcastInDim S64x2048 ![] bcast_S_S64x2048 (id (W (Proc.devRef .tc main_c_3)))) := by
  simp only [hostOps1_3, after_cons, after_nil]
  rfl

attribute [local irreducible] Host.sort2 Host.gather Host.scatter Host.reduce Host.reduceWindow concatenate in
set_option maxHeartbeats 1000000 in
/-- The fifth stretch: the zero table, -/
theorem s5_v35 (W : Valuation τ sig (Elt F)) :
    after first12 W (Proc.devRef .tc main_v35)
      = broadcastInDim S131073x512 ![] bcast_S_S131073x512 (constant S_ .f32 0x00000000#32) := by
  simp only [first12, after_cons, after_nil]
  rfl

attribute [local irreducible] Host.sort2 Host.gather Host.scatter Host.reduce Host.reduceWindow concatenate in
set_option maxHeartbeats 1000000 in
/-- the destinations as the column the scatter reads, -/
theorem s5_v43 (W : Valuation τ sig (Elt F)) :
    after first12 W (Proc.devRef .tc main_v43) = Chain.destColOf (W (Proc.devRef .tc main_v34)) := by
  simp only [first12, after_cons, after_nil]
  rfl

attribute [local irreducible] Host.sort2 Host.gather Host.scatter Host.reduce Host.reduceWindow concatenate in
set_option maxHeartbeats 1000000 in
/-- and the gathered planes as 131072 rows. -/
theorem s5_v37 (W : Valuation τ sig (Elt F)) :
    after first12 W (Proc.devRef .tc main_v37)
      = shapeCast S131072x512 (W (Proc.devRef .tc main_v10)) shapeCasts_S64x2048x512_S131072x512 := by
  simp only [first12, after_cons, after_nil]
  rfl

set_option maxHeartbeats 1000000 in
/-- The sixth stretch: the scatter and the slice. -/
theorem s6_v45 (W : Valuation τ sig (Elt F)) :
    after lastTwo W (Proc.devRef .tc main_v45)
      = Chain.scatterRows (W (Proc.devRef .tc main_v35)) (W (Proc.devRef .tc main_v43)) (W (Proc.devRef .tc main_v37)) := by
  unfold Chain.scatterRows
  simp only [lastTwo]
  after_results

/-! ## The lines after the region, whole -/

/-- The packed buffer: the rows of what the region left, scattered to the destinations the sorted lengths give. -/
theorem tail_v45 (W : Valuation τ sig (Elt F)) :
    after (List.flatten [hostOps1, hostOps1_1, hostOps1_2, hostOps1_3, hostOps1_4]) W (Proc.devRef .tc main_v45)
      = Chain.packed (W (Proc.devRef .tc main_v10)) (W (Proc.devRef .tc main_v9)) := by
  rw [after_tail, s6_v45, s5_v35, s5_v43, s5_v37, s4_v34, k_hostOps1_3_v10, k_hostOps1_2_v10, k_hostOps1_1_v10,
    k_hostOps1_v10, s3_v28, s3_v33, s3_c3, k_hostOps1_1_v11, s1_v11, k_hostOps1_1_v9, k_hostOps1_v9,
    k_hostOps1_1_v19, s1_v19, s2_v20, s1_v18]
  rfl

/-- The batch sizes. -/
theorem tail_v18 (W : Valuation τ sig (Elt F)) :
    after (List.flatten [hostOps1, hostOps1_1, hostOps1_2, hostOps1_3, hostOps1_4]) W (Proc.devRef .tc main_v18)
      = Chain.batchSizes (W (Proc.devRef .tc main_v9)) := by
  rw [after_tail, k_lastTwo_v18, k_first12_v18, k_hostOps1_3_v18, k_hostOps1_2_v18, k_hostOps1_1_v18, s1_v18]

/-- The permutation and its inverse pass through. -/
theorem tail_v1 (W : Valuation τ sig (Elt F)) :
    after (List.flatten [hostOps1, hostOps1_1, hostOps1_2, hostOps1_3, hostOps1_4]) W (Proc.devRef .tc main_v1)
      = W (Proc.devRef .tc main_v1) := by
  rw [after_tail, k_lastTwo_v1, k_first12_v1, k_hostOps1_3_v1, k_hostOps1_2_v1, k_hostOps1_1_v1, k_hostOps1_v1]

theorem tail_v2 (W : Valuation τ sig (Elt F)) :
    after (List.flatten [hostOps1, hostOps1_1, hostOps1_2, hostOps1_3, hostOps1_4]) W (Proc.devRef .tc main_v2)
      = W (Proc.devRef .tc main_v2) := by
  rw [after_tail, k_lastTwo_v2, k_first12_v2, k_hostOps1_3_v2, k_hostOps1_2_v2, k_hostOps1_1_v2, k_hostOps1_v2]

/-! ## The lines before the region -/

variable (m : (ℓ : Loc nD τ sig) → Buf (Elt F) ℓ) (ρ : Dev nD → PrngReg)

attribute [local irreducible] Host.sort2 Host.gather in
set_option maxHeartbeats 1000000 in
/-- The permutation, as the region finds it. -/
theorem head_v1 (c : Dev nD) : V0 m c (Proc.devRef .tc main_v1) = Chain.sortedIdx (m ((c : Thread nD τ).loc main_arg2)) := by
  unfold V0
  simp only [hostOps0, hostOps0_1, hostOps0_2, hostOps0_3, List.flatten_cons, List.flatten_nil, List.append_nil,
    List.cons_append, List.nil_append, after_cons, after_nil]
  rfl

attribute [local irreducible] Host.sort2 Host.gather in
set_option maxHeartbeats 1000000 in
/-- Its inverse. -/
theorem head_v2 (c : Dev nD) : V0 m c (Proc.devRef .tc main_v2) = Chain.unsortedIdx (m ((c : Thread nD τ).loc main_arg2)) := by
  unfold V0
  simp only [hostOps0, hostOps0_1, hostOps0_2, hostOps0_3, List.flatten_cons, List.flatten_nil, List.append_nil,
    List.cons_append, List.nil_append, after_cons, after_nil]
  rfl

attribute [local irreducible] Host.sort2 Host.gather in
set_option maxHeartbeats 1000000 in
/-- The lengths in descending order. -/
theorem head_v9 (c : Dev nD) : V0 m c (Proc.devRef .tc main_v9) = Chain.sortedLen (m ((c : Thread nD τ).loc main_arg2)) := by
  unfold V0
  simp only [hostOps0, hostOps0_1, hostOps0_2, hostOps0_3, List.flatten_cons, List.flatten_nil, List.append_nil,
    List.cons_append, List.nil_append, after_cons, after_nil]
  rfl

/-! ## The run, with every result named -/

/-- THE KERNEL PROGRAM'S RUN: the packed buffer is `packed` of the gathered planes and the sorted lengths, the batch
    sizes, the permutation and its inverse are the shared host arithmetic of the lengths, the arguments are kept. -/
theorem run (hO : Ok m) :
    θ_run defs (onTc (τ := τ) (main (F := F))) ⟨m, fun _ => 0, ρ⟩ fun r => ∀ c : Dev nD,
      r.2.mem ((c.tc : Thread nD τ).loc main_v45)
          = Chain.packed (Region.gathered m c) (Chain.sortedLen (m ((c.tc : Thread nD τ).loc main_arg2)))
      ∧ r.2.mem ((c.tc : Thread nD τ).loc main_v18) = Chain.batchSizes (Chain.sortedLen (m ((c.tc : Thread nD τ).loc main_arg2)))
      ∧ r.2.mem ((c.tc : Thread nD τ).loc main_v1) = Chain.sortedIdx (m ((c.tc : Thread nD τ).loc main_arg2))
      ∧ r.2.mem ((c.tc : Thread nD τ).loc main_v2) = Chain.unsortedIdx (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (run_main m ρ hO)
  have hr := (h c).2
  have hne9 : ∀ w, Pipeline.arrRef spec0 w ≠ main_v9 := by decide
  have hne1 : ∀ w, Pipeline.arrRef spec0 w ≠ main_v1 := by decide
  have hne2 : ∀ w, Pipeline.arrRef spec0 w ≠ main_v2 := by decide
  refine ⟨(hr main_v45 (by decide : main_v45 ∈ Pipeline.restRefs sig spec0)).trans ?_, (hr main_v18 (by decide : main_v18 ∈ Pipeline.restRefs sig spec0)).trans ?_, (hr main_v1 (by decide : main_v1 ∈ Pipeline.restRefs sig spec0)).trans ?_,
    (hr main_v2 (by decide : main_v2 ∈ Pipeline.restRefs sig spec0)).trans ?_,
    ((h c).1 0).trans (((dats m hO 0 c).arrAt_in 0 rfl _).trans ((A_eq m hO c 0).trans (V_main_arg0 m c))),
    (hr main_arg1 (by decide : main_arg1 ∈ Pipeline.restRefs sig spec0)).trans (W_main_arg1 m hO (dats m hO) c),
    (hr main_arg2 (by decide : main_arg2 ∈ Pipeline.restRefs sig spec0)).trans (W_main_arg2 m hO (dats m hO) c)⟩
  · unfold Pipeline.afterTail
    rw [tail_v45, Pipeline.withArrays_of_ne _ c (V0 m c) _ main_v9 hne9, head_v9]
    refine congrArg (fun x => Chain.packed x _) ?_
    exact (Pipeline.withArrays_arr spec0 winFacts0.arr_inj c _ _ 1).trans (Region.final m hO c)
  · unfold Pipeline.afterTail
    rw [tail_v18, Pipeline.withArrays_of_ne _ c (V0 m c) _ main_v9 hne9, head_v9]
  · unfold Pipeline.afterTail
    rw [tail_v1, Pipeline.withArrays_of_ne _ c (V0 m c) _ main_v1 hne1, head_v1]
  · unfold Pipeline.afterTail
    rw [tail_v2, Pipeline.withArrays_of_ne _ c (V0 m c) _ main_v2 hne2, head_v2]

end Cert.KernelIdeal.Value

end
-- ==== Proof.LibGatherPlanes.lean ====
import Idealize.ShloMosaic.Lib.ValueIdx

/-!
# A gather of whole planes, read at an index

The gather `table[idx]` of a rank-3 table of `N` planes of `A × B` elements by a column of `n` integer
words: result plane `e` is the table's plane named by the `e`-th index word, the word read as a SIGNED
integer and CLAMPED into `[0, N − 1]`; inside the plane the element keeps its two coordinates. The statement
is for arbitrary extents and for any record of dimension numbers whose lists are the ones the hypotheses name
(the plane axis `0` collapsed and start-indexed, the index vector on axis `1` of the `n × 1` column, axes
`1` and `2` offset axes), so it applies to a concrete record with `rfl` for every list.
-/

namespace Cert.LibGatherPlanes

open Idealize.ShloMosaic Idealize.ShloMosaic.ValueIdx

/-- THE PLANE GATHER AT `(e, p, q)`: the table at plane "index word `e`, read signed and clamped into
    `[0, N − 1]`", at `(p, q)` inside it. On the plane axis (collapsed, start-indexed) the operand coordinate
    is the clamped start; on the two inner axes (offset axes, not start-indexed) it is the result's own. -/
theorem gather_planes {α : Type} {N A B n w : Nat}
    (d : GatherDims ⟨3, ![N, A, B]⟩ ⟨2, ![n, 1]⟩ ⟨3, ![n, A, B]⟩)
    (hoff : d.offsetDims = [1, 2]) (hcoll : d.collapsedSliceDims = [0]) (hob : d.operandBatchingDims = [])
    (hsim : d.startIndexMap = [0]) (hivd : d.indexVectorDim = 1)
    (x : (⟨3, ![N, A, B]⟩ : Shape).Idx → α) (idx : IVec ⟨2, ![n, 1]⟩ w) (e : Fin n) (p : Fin A) (q : Fin B)
    (hN : 0 < N) :
    Host.gather d x idx (ix3 e p q) = x (ix3 ⟨min (idx (ix2 e 0)).toInt.toNat (N - 1), by omega⟩ p q) := by
  -- the collapsed plane axis has slice size 1, so the clamp's upper end is N − 1
  have hsl : d.sliceSizes 0 = 1 := d.slice_collapsed 0 (by rw [hcoll]; exact List.mem_singleton.mpr rfl)
  obtain ⟨off, coll, ob, sb, sim, ivd, ss, wf⟩ := d
  simp only at hoff hcoll hob hsim hivd hsl
  subst hoff hcoll hob hsim hivd
  unfold Host.gather
  congr 1
  funext a
  apply Fin.ext
  match a with
  | ⟨0, _⟩ =>
    -- the start index of result element (e, p, q) is read at (e, 0) of the index column
    have hsi : ∀ c, (GatherDims.siIdx ⟨[1, 2], [0], [], sb, [0], 1, ss, wf⟩ (ix3 e p q) c : (⟨2, ![n, 1]⟩ : Shape).Idx)
        = ix2 e 0 := by
      intro c
      funext b
      apply Fin.ext
      match b with
      | ⟨0, _⟩ => rfl
      | ⟨1, _⟩ =>
        have := c.isLt
        simp only [List.length_singleton] at this
        show c.val = 0
        omega
    show min (idx (GatherDims.siIdx _ _ _)).toInt.toNat (N - ss 0) + 0 + 0 = min (idx (ix2 e 0)).toInt.toNat (N - 1)
    rw [hsi, hsl]
    rfl
  | ⟨1, _⟩ =>
    -- the first inner axis: start 0, no batching, offset coordinate the result's own
    show GatherDims.start _ _ _ _ + GatherDims.batchCoord _ _ _ + GatherDims.offCoord _ _ _ = p.val
    rw [GatherDims.batchCoord_eq_zero _ _ _ List.not_mem_nil]
    unfold GatherDims.start GatherDims.offCoord
    split
    · next ha => exact absurd ha (show (1 : Fin 3) ∉ ([0] : List (Fin 3)) by decide)
    · split
      · rw [Nat.add_zero, Nat.zero_add]
        rfl
      · next ha => exact absurd (show (1 : Fin 3) ∈ ([1, 2] : List (Fin 3)) by decide) ha
  | ⟨2, _⟩ =>
    -- the second inner axis, likewise
    show GatherDims.start _ _ _ _ + GatherDims.batchCoord _ _ _ + GatherDims.offCoord _ _ _ = q.val
    rw [GatherDims.batchCoord_eq_zero _ _ _ List.not_mem_nil]
    unfold GatherDims.start GatherDims.offCoord
    split
    · next ha => exact absurd ha (show (2 : Fin 3) ∉ ([0] : List (Fin 3)) by decide)
    · split
      · rw [Nat.add_zero, Nat.zero_add]
        rfl
      · next ha => exact absurd (show (2 : Fin 3) ∈ ([1, 2] : List (Fin 3)) by decide) ha

end Cert.LibGatherPlanes
-- ==== Proof.WrapGather.lean ====
import Idealize.ShloMosaic.Lib.ValueIdx
import proofs.«410026_j11879879542307_1_alg».proof.Proof.LibGatherPlanes

/-!
# Indexing planes by a vector of small words

`x[si]` for a table `x` of 64 planes and a vector `si` of 64 words is three steps: words that are negative as signed
integers are wrapped (64 is added to them), the vector becomes a 64 × 1 column, and the planes are gathered with
the start word read signed and clamped into `[0, 63]`. When every word of `si` is below 64 as a natural number
none of the three does anything: such a word has its top bit clear, so it is not negative and the wrap leaves it;
its signed value is its natural value; and the clamp leaves a value at most 63. Result plane `e` is then plane
`(si e).toNat` of the table.
-/

namespace Cert.WrapGather

open Idealize.ShloMosaic Idealize.ShloMosaic.ValueIdx

/-! ## A 32-bit word below 64 -/

/-- Its signed value is its natural value: twice it is below `2 ^ 32`. -/
theorem toInt_of_lt (w : BitVec 32) (h : w.toNat < 64) : w.toInt = (w.toNat : Int) := by
  rw [BitVec.toInt_eq_toNat_cond, if_pos (by omega)]

/-- So it is not below zero in the signed order: the comparison's bit is `0`. -/
theorem slt_zero_of_lt (w : BitVec 32) (h : w.toNat < 64) : IntOp.cmpi .slt w 0#32 = 0#1 := by
  have h0 : (0#32 : BitVec 32).toInt = 0 := by decide
  have hs : w.slt 0#32 = false := by
    unfold BitVec.slt
    rw [toInt_of_lt w h, h0]
    exact decide_eq_false (by omega)
  show BitVec.ofBool (w.slt 0#32) = 0#1
  rw [hs]
  rfl

/-- And its signed value, as a natural number clamped at 63, is again its natural value. -/
theorem clamp_of_lt (w : BitVec 32) (h : w.toNat < 64) : min w.toInt.toNat (64 - 1) = w.toNat := by
  rw [toInt_of_lt w h, Int.toNat_natCast]
  omega

/-! ## The wrap and the column, read at an index -/

/-- The wrapped vector at an index whose word is below 64 is that word: the comparison with the broadcast zero is
    the word's own comparison with `0`, whose bit is clear, so the select takes its last operand. -/
theorem wrap_apply (b0 : (⟨0, ![]⟩ : Shape).BroadcastsInDim ⟨1, ![64]⟩ (![] : Fin 0 → Fin 1))
    (si : IVec ⟨1, ![64]⟩ 32) (i : (⟨1, ![64]⟩ : Shape).Idx) (h : (si i).toNat < 64) :
    select (cmpi .slt si (broadcastInDim ⟨1, ![64]⟩ ![] b0 (constantI ⟨0, ![]⟩ 32 0#32)))
        (addi si (broadcastInDim ⟨1, ![64]⟩ ![] b0 (constantI ⟨0, ![]⟩ 32 64#32))) si i = si i := by
  show Scalar.select (IntOp.cmpi .slt (si i) 0#32) (IntOp.addi (si i) 64#32) (si i) = si i
  rw [slt_zero_of_lt _ h, select_zero]

/-- The 64 × 1 column made from a vector reads, at `(e, 0)`, the vector at `e`: the vector's one axis has more than
    one element, so its coordinate is the column's coordinate on the axis it is mapped to. -/
theorem column_apply {α : Type} (b1 : (⟨1, ![64]⟩ : Shape).BroadcastsInDim ⟨2, ![64, 1]⟩ (![0] : Fin 1 → Fin 2))
    (v : (⟨1, ![64]⟩ : Shape).Idx → α) (e : Fin 64) :
    broadcastInDim ⟨2, ![64, 1]⟩ ![0] b1 v (ix2 e 0) = v (ix1 e) := by
  have hs : ∀ a : Fin (⟨1, ![64]⟩ : Shape).rank, ¬ (⟨1, ![64]⟩ : Shape).size a = 1 := by decide
  unfold broadcastInDim
  congr 1
  funext a
  match a with
  | ⟨0, _⟩ =>
    apply Fin.ext
    rw [dif_neg (hs _)]
    rfl

/-! ## The gather -/

/-- INDEXING PLANES BY SMALL WORDS: result plane `j 0` is the table's plane `(si (j 0)).toNat`, the element keeping
    its two inner coordinates. -/
theorem gather_wrapped {α : Type} (d : GatherDims ⟨3, ![64, 2048, 512]⟩ ⟨2, ![64, 1]⟩ ⟨3, ![64, 2048, 512]⟩)
    (hoff : d.offsetDims = [1, 2]) (hcoll : d.collapsedSliceDims = [0]) (hob : d.operandBatchingDims = [])
    (hsim : d.startIndexMap = [0]) (hivd : d.indexVectorDim = 1)
    (b0 : (⟨0, ![]⟩ : Shape).BroadcastsInDim ⟨1, ![64]⟩ (![] : Fin 0 → Fin 1))
    (b1 : (⟨1, ![64]⟩ : Shape).BroadcastsInDim ⟨2, ![64, 1]⟩ (![0] : Fin 1 → Fin 2))
    (x : (⟨3, ![64, 2048, 512]⟩ : Shape).Idx → α) (si : IVec ⟨1, ![64]⟩ 32) (hsi : ∀ j, (si j).toNat < 64)
    (j : (⟨3, ![64, 2048, 512]⟩ : Shape).Idx) :
    Host.gather d x (broadcastInDim ⟨2, ![64, 1]⟩ ![0] b1
        (select (cmpi .slt si (broadcastInDim ⟨1, ![64]⟩ ![] b0 (constantI ⟨0, ![]⟩ 32 0#32)))
          (addi si (broadcastInDim ⟨1, ![64]⟩ ![] b0 (constantI ⟨0, ![]⟩ 32 64#32))) si)) j
      = x (ix3 ⟨(si (ix1 (j 0))).toNat, hsi _⟩ (j 1) (j 2)) := by
  obtain ⟨e, p, q, rfl⟩ : ∃ (e : Fin 64) (p : Fin 2048) (q : Fin 512), j = ix3 e p q := ⟨j 0, j 1, j 2, eq_ix3 j⟩
  rw [Cert.LibGatherPlanes.gather_planes d hoff hcoll hob hsim hivd x _ e p q (by decide)]
  congr 1
  funext a
  match a with
  | ⟨0, _⟩ =>
    -- the plane: the column's entry at (e, 0) is the wrapped vector at e, which is the word itself, and the
    -- signed reading and the clamp leave it
    apply Fin.ext
    show min (BitVec.toInt _).toNat (64 - 1) = (si (ix1 e)).toNat
    rw [column_apply, wrap_apply b0 si (ix1 e) (hsi _), clamp_of_lt _ (hsi _)]
  | ⟨1, _⟩ => rfl
  | ⟨2, _⟩ => rfl

/-! ## The same for a vector of 64 elements

`v[si]` for a vector `v` of 64 elements: the same wrap and the same column, then a gather of single elements, the
one axis collapsed and start-indexed, no offset axis. -/

/-- THE ELEMENT GATHER AT `e`: the vector at "index word `e`, read signed and clamped into `[0, N − 1]`". The one
    operand axis is collapsed (slice size 1, so the clamp's upper end is `N − 1`), is no batching axis and no kept
    axis, so the operand coordinate is the clamped start alone; the start is read at `(e, 0)` of the index column. -/
theorem gather_elements {α : Type} {N n w : Nat} (d : GatherDims ⟨1, ![N]⟩ ⟨2, ![n, 1]⟩ ⟨1, ![n]⟩)
    (hoff : d.offsetDims = []) (hcoll : d.collapsedSliceDims = [0]) (hob : d.operandBatchingDims = [])
    (hsim : d.startIndexMap = [0]) (hivd : d.indexVectorDim = 1)
    (x : (⟨1, ![N]⟩ : Shape).Idx → α) (idx : IVec ⟨2, ![n, 1]⟩ w) (e : Fin n) (hN : 0 < N) :
    Host.gather d x idx (ix1 e) = x (ix1 ⟨min (idx (ix2 e 0)).toInt.toNat (N - 1), by omega⟩) := by
  have hsl : d.sliceSizes 0 = 1 := d.slice_collapsed 0 (by rw [hcoll]; exact List.mem_singleton.mpr rfl)
  obtain ⟨off, coll, ob, sb, sim, ivd, ss, wf⟩ := d
  simp only at hoff hcoll hob hsim hivd hsl
  subst hoff hcoll hob hsim hivd
  unfold Host.gather
  congr 1
  funext a
  apply Fin.ext
  match a with
  | ⟨0, _⟩ =>
    have hcol : ∀ c, (GatherDims.siIdx ⟨[], [0], [], sb, [0], 1, ss, wf⟩ (ix1 e) c : (⟨2, ![n, 1]⟩ : Shape).Idx)
        = ix2 e 0 := by
      intro c
      funext b
      apply Fin.ext
      match b with
      | ⟨0, _⟩ => rfl
      | ⟨1, _⟩ =>
        have hc := c.isLt
        simp only [List.length_singleton] at hc
        show c.val = 0
        omega
    show min (idx (GatherDims.siIdx _ _ _)).toInt.toNat (N - ss 0) + 0 + 0 = min (idx (ix2 e 0)).toInt.toNat (N - 1)
    rw [hcol, hsl]
    rfl

/-- INDEXING A VECTOR BY SMALL WORDS: result element `j 0` is the vector's element `(si (j 0)).toNat`. -/
theorem gather_wrapped_vec {α : Type} (d : GatherDims ⟨1, ![64]⟩ ⟨2, ![64, 1]⟩ ⟨1, ![64]⟩)
    (hoff : d.offsetDims = []) (hcoll : d.collapsedSliceDims = [0]) (hob : d.operandBatchingDims = [])
    (hsim : d.startIndexMap = [0]) (hivd : d.indexVectorDim = 1)
    (b0 : (⟨0, ![]⟩ : Shape).BroadcastsInDim ⟨1, ![64]⟩ (![] : Fin 0 → Fin 1))
    (b1 : (⟨1, ![64]⟩ : Shape).BroadcastsInDim ⟨2, ![64, 1]⟩ (![0] : Fin 1 → Fin 2))
    (x : (⟨1, ![64]⟩ : Shape).Idx → α) (si : IVec ⟨1, ![64]⟩ 32) (hsi : ∀ j, (si j).toNat < 64)
    (j : (⟨1, ![64]⟩ : Shape).Idx) :
    Host.gather d x (broadcastInDim ⟨2, ![64, 1]⟩ ![0] b1
        (select (cmpi .slt si (broadcastInDim ⟨1, ![64]⟩ ![] b0 (constantI ⟨0, ![]⟩ 32 0#32)))
          (addi si (broadcastInDim ⟨1, ![64]⟩ ![] b0 (constantI ⟨0, ![]⟩ 32 64#32))) si)) j
      = x (ix1 ⟨(si (ix1 (j 0))).toNat, hsi _⟩) := by
  obtain ⟨e, rfl⟩ : ∃ e : Fin 64, j = ix1 e := ⟨j 0, eq_ix1 j⟩
  rw [gather_elements d hoff hcoll hob hsim hivd x _ e (by decide)]
  congr 1
  funext a
  match a with
  | ⟨0, _⟩ =>
    apply Fin.ext
    show min (BitVec.toInt _).toNat (64 - 1) = (si (ix1 e)).toNat
    rw [column_apply, wrap_apply b0 si (ix1 e) (hsi _), clamp_of_lt _ (hsi _)]

end Cert.WrapGather
-- ==== Proof.Bridge.lean ====
import proofs.«410026_j11879879542307_1_alg».proof.Proof.KernelIdealRegion
import proofs.«410026_j11879879542307_1_alg».proof.Proof.Chain
import proofs.«410026_j11879879542307_1_alg».proof.Proof.WrapGather

/-!
Where the two programs meet. The reference gathers the planes of the input with jnp's `inputs[sortedIdx]`: the
permutation wrapped where negative, made a column, the start word of each plane read signed and clamped into
`[0, 63]`. The kernel program reads the same permutation as the table of its gather kernel, and leaves plane
`table[k]` of the input in plane `k`. A permutation's words are positions, below 64 as naturals, so neither the wrap
nor the clamp changes them: the two batches of planes are one array.
-/

set_option maxRecDepth 16384

noncomputable section

namespace Cert.KernelIdeal.Bridge

open Cert.KernelIdeal Cert.KernelIdeal.Gen
open Idealize.ShloMosaic Idealize.ShloMosaic.TcCoe Idealize.SL.Sem
open Idealize.ShloMosaic.ValueIdx

variable {F : FTy → Type} [FloatOps F]

/-- Every word of the permutation is the number of a position. -/
theorem sortedIdx_lt (len : IVec S64 32) (x : S64.Idx) : (Chain.sortedIdx len x).toNat < 64 := by
  unfold Chain.sortedIdx
  exact Cert.LibSortIota.sort2_iota_snd_toNat_lt comparator_i32_i32_d0 _ x

variable (m : (ℓ : Loc nD τ sig) → Buf (Elt F) ℓ)

/-- The kernel's table is the permutation of the lengths the launch memory holds. -/
theorem tbl_sorted : (tbl m 0 : IVec S64 32) = Chain.sortedIdx (m (((0 : Dev nD) : Thread nD τ).loc main_arg2)) :=
  Table.tbl_eq m

/-- The plane the table names for output plane `k`, as a word of the permutation. -/
theorem plane_val (k : Fin 64) :
    (Region.plane m k).val = (Chain.sortedIdx (m (((0 : Dev nD) : Thread nD τ).loc main_arg2)) (ix1 k)).toNat := by
  show (tbl m 0 (ix1 k) : BitVec 32).toNat = _
  rw [congrFun (tbl_sorted m) (ix1 k)]

/-- THE TWO BATCHES OF PLANES ARE ONE: a gather of planes of the input by the wrapped permutation column (any record
    of dimension numbers with the plane axis collapsed and start-indexed) is the array the gather kernel leaves. -/
theorem gather_eq_gathered (c : Dev nD) (d : GatherDims S64x2048x512 S64x1 S64x2048x512)
    (hoff : d.offsetDims = [1, 2]) (hcoll : d.collapsedSliceDims = [0]) (hob : d.operandBatchingDims = [])
    (hsim : d.startIndexMap = [0]) (hivd : d.indexVectorDim = 1) :
    Host.gather d (m ((c : Thread nD τ).loc main_arg0)) (Chain.idxCol (m ((c : Thread nD τ).loc main_arg2)))
      = Region.gathered m c := by
  obtain rfl : c = 0 := Subsingleton.elim _ _
  funext j
  unfold Chain.idxCol Chain.wrap
  refine (Cert.WrapGather.gather_wrapped d hoff hcoll hob hsim hivd bcast_S_S64 bcast_S64_S64x1_0
    (m (((0 : Dev nD) : Thread nD τ).loc main_arg0)) (Chain.sortedIdx (m (((0 : Dev nD) : Thread nD τ).loc main_arg2)))
    (sortedIdx_lt _) j).trans ?_
  unfold Region.gathered
  rw [V_main_arg0]
  refine congrArg (m (((0 : Dev nD) : Thread nD τ).loc main_arg0)) ?_
  exact congrArg (fun k => ix3 k (j 1) (j 2)) (Fin.ext (plane_val m (j 0)).symm)

end Cert.KernelIdeal.Bridge

end
-- ==== Proof.RefRun.lean ====
/-
  The run of the reference program, written out: @main is a straight line of host operations once its calls are
  unfolded (a call means its callee's body on the operands: the two stable argsorts, the cumulative sum through
  its inner function, and the scalar-filled select), so every weakly fair execution terminates and leaves each
  buffer at the fold of that list of operations over the launch contents.
-/
import proofs.«410026_j11879879542307_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, each call's operations listed where the call stands, over the call's buffer record.
    The negation of the lengths; the first argsort (an iota, then the two results of the stable sort of the pair
    (keys, iota) by the keys, the second result being the permutation); the second argsort, of that permutation
    (its inverse); the two index normalisations (add 64 where negative) and the two gathers along the batch axis,
    of the lengths and of the rows; the column iota and the count per column of the rows longer than it (a compare,
    a widening to 32 bits, a sum over the batch axis); the cumulative sum as a windowed sum of width 2048 padded on
    the left (inside the inner function: the zero, its rank-zero broadcast, the reduce-window), shifted right by one
    behind a leading zero (a slice and a concatenate); the destination index, offset plus batch position, kept where
    the column is inside the row's length and replaced by 131072 elsewhere (the call of the select: the scalar's
    conversion, its broadcast, the select); then the zero table of 131073 rows, the two reshapes, the normalisation
    of the flat indices (add 131073 where negative), their column form, the scatter of the rows and the slice that
    drops the last row. -/
abbrev ops : List (HloOp τ sig (Elt F)) :=
  [ unary main_arg2 main_v0 (negi : (⟨S64, .i32⟩ : BufTy).Contents (Elt F) → (⟨S64, .i32⟩ : BufTy).Contents (Elt F)),
    TRef.nullary main_call0.v0 (iotaInDim S64 32 0),
    TRef.binary (.of main_v0 : TRef sig ⟨S64, .i32⟩) main_call0.v0 main_call0.v1_0 (fun x y => (Host.sort2 S64 0 comparator_i32_i32_d0 x y).1),
    TRef.binary (.of main_v0 : TRef sig ⟨S64, .i32⟩) main_call0.v0 main_call0.v1_1 (fun x y => (Host.sort2 S64 0 comparator_i32_i32_d0 x y).2),
    TRef.nullary main_call1.v0 (iotaInDim S64 32 0),
    TRef.binary (.of main_v1 : TRef sig ⟨S64, .i32⟩) main_call1.v0 main_call1.v1_0 (fun x y => (Host.sort2 S64 0 comparator_i32_i32_d0 x y).1),
    TRef.binary (.of main_v1 : TRef sig ⟨S64, .i32⟩) main_call1.v0 main_call1.v1_1 (fun x y => (Host.sort2 S64 0 comparator_i32_i32_d0 x y).2),
    nullary main_c (constantI S_ 32 0#32),
    unary main_c main_v3 (broadcastInDim S64 ![] bcast_S_S64 : (⟨S_, .i32⟩ : BufTy).Contents (Elt F) → (⟨S64, .i32⟩ : BufTy).Contents (Elt F)),
    binary main_v1 main_v3 main_v4 (cmpi .slt : (⟨S64, .i32⟩ : BufTy).Contents (Elt F) → (⟨S64, .i32⟩ : BufTy).Contents (Elt F) → (⟨S64, .i1⟩ : BufTy).Contents (Elt F)),
    nullary main_c_0 (constantI S_ 32 64#32),
    unary main_c_0 main_v5 (broadcastInDim S64 ![] bcast_S_S64 : (⟨S_, .i32⟩ : BufTy).Contents (Elt F) → (⟨S64, .i32⟩ : BufTy).Contents (Elt F)),
    binary main_v1 main_v5 main_v6 (addi : (⟨S64, .i32⟩ : BufTy).Contents (Elt F) → (⟨S64, .i32⟩ : BufTy).Contents (Elt F) → (⟨S64, .i32⟩ : BufTy).Contents (Elt F)),
    ternary main_v4 main_v6 main_v1 main_v7 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    unary main_v7 main_v8 (broadcastInDim S64x1 ![0] bcast_S64_S64x1_0 : (⟨S64, .i32⟩ : BufTy).Contents (Elt F) → (⟨S64x1, .i32⟩ : BufTy).Contents (Elt F)),
    binary main_arg2 main_v8 main_v9 ((fun x i => Host.gather gather_S64_S64x1_S64_n_0_n_n_0_1_1 x i) : (⟨S64, .i32⟩ : BufTy).Contents (Elt F) → (⟨S64x1, .i32⟩ : BufTy).Contents (Elt F) → (⟨S64, .i32⟩ : BufTy).Contents (Elt F)),
    nullary main_c_1 (constantI S_ 32 0#32),
    unary main_c_1 main_v10 (broadcastInDim S64 ![] bcast_S_S64 : (⟨S_, .i32⟩ : BufTy).Contents (Elt F) → (⟨S64, .i32⟩ : BufTy).Contents (Elt F)),
    binary main_v1 main_v10 main_v11 (cmpi .slt : (⟨S64, .i32⟩ : BufTy).Contents (Elt F) → (⟨S64, .i32⟩ : BufTy).Contents (Elt F) → (⟨S64, .i1⟩ : BufTy).Contents (Elt F)),
    nullary main_c_2 (constantI S_ 32 64#32),
    unary main_c_2 main_v12 (broadcastInDim S64 ![] bcast_S_S64 : (⟨S_, .i32⟩ : BufTy).Contents (Elt F) → (⟨S64, .i32⟩ : BufTy).Contents (Elt F)),
    binary main_v1 main_v12 main_v13 (addi : (⟨S64, .i32⟩ : BufTy).Contents (Elt F) → (⟨S64, .i32⟩ : BufTy).Contents (Elt F) → (⟨S64, .i32⟩ : BufTy).Contents (Elt F)),
    ternary main_v11 main_v13 main_v1 main_v14 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    unary main_v14 main_v15 (broadcastInDim S64x1 ![0] bcast_S64_S64x1_0 : (⟨S64, .i32⟩ : BufTy).Contents (Elt F) → (⟨S64x1, .i32⟩ : BufTy).Contents (Elt F)),
    binary main_arg0 main_v15 main_v16 ((fun x i => Host.gather gather_S64x2048x512_S64x1_S64x2048x512_12_0_n_n_0_1_12048512 x i) : (⟨S64x2048x512, .f32⟩ : BufTy).Contents (Elt F) → (⟨S64x1, .i32⟩ : BufTy).Contents (Elt F) → (⟨S64x2048x512, .f32⟩ : BufTy).Contents (Elt F)),
    nullary main_v17 (iotaInDim S2048 32 0),
    unary main_v9 main_v18 (broadcastInDim S64x1 ![0] bcast_S64_S64x1_0 : (⟨S64, .i32⟩ : BufTy).Contents (Elt F) → (⟨S64x1, .i32⟩ : BufTy).Contents (Elt F)),
    unary main_v17 main_v19 (broadcastInDim S1x2048 ![1] bcast_S2048_S1x2048_1 : (⟨S2048, .i32⟩ : BufTy).Contents (Elt F) → (⟨S1x2048, .i32⟩ : BufTy).Contents (Elt F)),
    unary main_v18 main_v20 (broadcastInDim S64x2048 ![0, 1] bcast_S64x1_S64x2048_0_1 : (⟨S64x1, .i32⟩ : BufTy).Contents (Elt F) → (⟨S64x2048, .i32⟩ : BufTy).Contents (Elt F)),
    unary main_v19 main_v21 (broadcastInDim S64x2048 ![0, 1] bcast_S1x2048_S64x2048_0_1 : (⟨S1x2048, .i32⟩ : BufTy).Contents (Elt F) → (⟨S64x2048, .i32⟩ : BufTy).Contents (Elt F)),
    binary main_v20 main_v21 main_v22 (cmpi .sgt : (⟨S64x2048, .i32⟩ : BufTy).Contents (Elt F) → (⟨S64x2048, .i32⟩ : BufTy).Contents (Elt F) → (⟨S64x2048, .i1⟩ : BufTy).Contents (Elt F)),
    unary main_v22 main_v23 ((extui 32 · natLt_1_32) : (⟨S64x2048, .i1⟩ : BufTy).Contents (Elt F) → (⟨S64x2048, .i32⟩ : BufTy).Contents (Elt F)),
    nullary main_c_3 (constantI S_ 32 0#32),
    binary main_v23 main_c_3 main_v24 ((fun x v => Host.reduce IntOp.addi x v reducesTo_S64x2048_S2048_d0 h_S_) : (⟨S64x2048, .i32⟩ : BufTy).Contents (Elt F) → (⟨S_, .i32⟩ : BufTy).Contents (Elt F) → (⟨S2048, .i32⟩ : BufTy).Contents (Elt F)),
    nullary main_c_4 (constantI S_ 32 0#32),
    unary main_c_4 main_v25 (broadcastInDim S1 ![] bcast_S_S1 : (⟨S_, .i32⟩ : BufTy).Contents (Elt F) → (⟨S1, .i32⟩ : BufTy).Contents (Elt F)),
    TRef.nullary main_call2.call0.c (constantI S_ 32 0#32),
    TRef.unary main_call2.call0.c main_call2.call0.v0 (broadcastInDim S_ ![] bcast_S_S_),
    TRef.binary (.of main_v24 : TRef sig ⟨S2048, .i32⟩) main_call2.call0.v0 main_call2.call0.v1 (fun x v => Host.reduceWindow IntOp.addi ![2048] ![1] ![2047] ![0] x v reduceWindows_S2048_S2048_w2048s1p2047_0 h_S_),
    unary main_v26 main_v27 ((extractStridedSlice S2047 ![0] · slices_S2048_S2047_0) : (⟨S2048, .i32⟩ : BufTy).Contents (Elt F) → (⟨S2047, .i32⟩ : BufTy).Contents (Elt F)),
    binary main_v25 main_v27 main_v28 ((fun a b => concatenate S2048 0 [⟨S1, a⟩, ⟨S2047, b⟩] concatenates_S1_S2047_S2048_d0) : (⟨S1, .i32⟩ : BufTy).Contents (Elt F) → (⟨S2047, .i32⟩ : BufTy).Contents (Elt F) → (⟨S2048, .i32⟩ : BufTy).Contents (Elt F)),
    nullary main_v29 (iotaInDim S64 32 0),
    unary main_v17 main_v30 (broadcastInDim S1x2048 ![1] bcast_S2048_S1x2048_1 : (⟨S2048, .i32⟩ : BufTy).Contents (Elt F) → (⟨S1x2048, .i32⟩ : BufTy).Contents (Elt F)),
    unary main_v9 main_v31 (broadcastInDim S64x1 ![0] bcast_S64_S64x1_0 : (⟨S64, .i32⟩ : BufTy).Contents (Elt F) → (⟨S64x1, .i32⟩ : BufTy).Contents (Elt F)),
    unary main_v30 main_v32 (broadcastInDim S64x2048 ![0, 1] bcast_S1x2048_S64x2048_0_1 : (⟨S1x2048, .i32⟩ : BufTy).Contents (Elt F) → (⟨S64x2048, .i32⟩ : BufTy).Contents (Elt F)),
    unary main_v31 main_v33 (broadcastInDim S64x2048 ![0, 1] bcast_S64x1_S64x2048_0_1 : (⟨S64x1, .i32⟩ : BufTy).Contents (Elt F) → (⟨S64x2048, .i32⟩ : BufTy).Contents (Elt F)),
    binary main_v32 main_v33 main_v34 (cmpi .slt : (⟨S64x2048, .i32⟩ : BufTy).Contents (Elt F) → (⟨S64x2048, .i32⟩ : BufTy).Contents (Elt F) → (⟨S64x2048, .i1⟩ : BufTy).Contents (Elt F)),
    unary main_v28 main_v35 (broadcastInDim S1x2048 ![1] bcast_S2048_S1x2048_1 : (⟨S2048, .i32⟩ : BufTy).Contents (Elt F) → (⟨S1x2048, .i32⟩ : BufTy).Contents (Elt F)),
    unary main_v29 main_v36 (broadcastInDim S64x1 ![0] bcast_S64_S64x1_0 : (⟨S64, .i32⟩ : BufTy).Contents (Elt F) → (⟨S64x1, .i32⟩ : BufTy).Contents (Elt F)),
    unary main_v35 main_v37 (broadcastInDim S64x2048 ![0, 1] bcast_S1x2048_S64x2048_0_1 : (⟨S1x2048, .i32⟩ : BufTy).Contents (Elt F) → (⟨S64x2048, .i32⟩ : BufTy).Contents (Elt F)),
    unary main_v36 main_v38 (broadcastInDim S64x2048 ![0, 1] bcast_S64x1_S64x2048_0_1 : (⟨S64x1, .i32⟩ : BufTy).Contents (Elt F) → (⟨S64x2048, .i32⟩ : BufTy).Contents (Elt F)),
    binary main_v37 main_v38 main_v39 (addi : (⟨S64x2048, .i32⟩ : BufTy).Contents (Elt F) → (⟨S64x2048, .i32⟩ : BufTy).Contents (Elt F) → (⟨S64x2048, .i32⟩ : BufTy).Contents (Elt F)),
    nullary main_c_5 (constantI S_ 32 131072#32),
    TRef.unary (.of main_c_5 : TRef sig ⟨S_, .i32⟩) main_call3.v0 id,
    TRef.unary main_call3.v0 main_call3.v1 (broadcastInDim S64x2048 ![] bcast_S_S64x2048),
    TRef.ternary (.of main_v34 : TRef sig ⟨S64x2048, .i1⟩) (.of main_v39 : TRef sig ⟨S64x2048, .i32⟩) main_call3.v1 main_call3.v2 select,
    nullary main_cst (constant S_ .f32 0x00000000#32),
    unary main_cst main_v41 (broadcastInDim S131073x512 ![] bcast_S_S131073x512 : (⟨S_, .f32⟩ : BufTy).Contents (Elt F) → (⟨S131073x512, .f32⟩ : BufTy).Contents (Elt F)),
    reshape main_v40 main_v42 rfl shapeCasts_S64x2048_S131072,
    reshape main_v16 main_v43 rfl shapeCasts_S64x2048x512_S131072x512,
    nullary main_c_6 (constantI S_ 32 0#32),
    unary main_c_6 main_v44 (broadcastInDim S131072 ![] bcast_S_S131072 : (⟨S_, .i32⟩ : BufTy).Contents (Elt F) → (⟨S131072, .i32⟩ : BufTy).Contents (Elt F)),
    binary main_v42 main_v44 main_v45 (cmpi .slt : (⟨S131072, .i32⟩ : BufTy).Contents (Elt F) → (⟨S131072, .i32⟩ : BufTy).Contents (Elt F) → (⟨S131072, .i1⟩ : BufTy).Contents (Elt F)),
    nullary main_c_7 (constantI S_ 32 131073#32),
    unary main_c_7 main_v46 (broadcastInDim S131072 ![] bcast_S_S131072 : (⟨S_, .i32⟩ : BufTy).Contents (Elt F) → (⟨S131072, .i32⟩ : BufTy).Contents (Elt F)),
    binary main_v42 main_v46 main_v47 (addi : (⟨S131072, .i32⟩ : BufTy).Contents (Elt F) → (⟨S131072, .i32⟩ : BufTy).Contents (Elt F) → (⟨S131072, .i32⟩ : BufTy).Contents (Elt F)),
    ternary main_v45 main_v47 main_v42 main_v48 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    unary main_v48 main_v49 (broadcastInDim S131072x1 ![0] bcast_S131072_S131072x1_0 : (⟨S131072, .i32⟩ : BufTy).Contents (Elt F) → (⟨S131072x1, .i32⟩ : BufTy).Contents (Elt F)),
    ternary main_v41 main_v49 main_v43 main_v50 ((fun x i u => Host.scatter scatter_S131073x512_S131072x1_S131072x512_1_0_0_1 (fun _ b => b) x i u) : (⟨S131073x512, .f32⟩ : BufTy).Contents (Elt F) → (⟨S131072x1, .i32⟩ : BufTy).Contents (Elt F) → (⟨S131072x512, .f32⟩ : BufTy).Contents (Elt F) → (⟨S131073x512, .f32⟩ : BufTy).Contents (Elt F)),
    unary main_v50 main_v51 ((extractStridedSlice S131072x512 ![0, 0] · slices_S131073x512_S131072x512_0_0) : (⟨S131073x512, .f32⟩ : BufTy).Contents (Elt F) → (⟨S131072x512, .f32⟩ : BufTy).Contents (Elt F)) ]

-- seventy binds re-associated: the rewriting under the chain recurses once per statement
set_option maxRecDepth 2048 in
/-- @main is that straight line: its two windows in order, the functions' definitions unfolded at their calls and
    the records at their fields; both sides are one chain of host steps once sequencing is reassociated. -/
theorem main_eq (c : Dev nD) : main (F := F) c = seq ops := by
  simp only [main, main_part0, main_part1, fn_argsort.body, fn_cumsum.body, fn_cumsum_0.body, fn_where.body, seq,
    bind_assoc, pure_bind]

/-- No TensorCore buffer of this program is scoped: it launches no kernel. -/
theorem scopedRefs_eq : (Finset.univ.filter fun b : Ref sig .tc => b.isScoped) = ∅ := by decide
/-- Nor is any semaphore: there is none. -/
theorem scopedSems_eq : (Finset.univ.filter fun sm : SemLoc sig => sm.isScoped .tc) = ∅ := by decide

/-- Every operation touches TensorCore references only, one fact per operation in order. -/
theorem ops_sub : (ops : List (HloOp τ sig (Elt F))).Forall fun op => op.bufs ⊆ tcRefs τ sig :=
  ⟨unary_bufs_sub ..,
    nullary_bufs_sub .., binary_bufs_sub .., binary_bufs_sub ..,
    nullary_bufs_sub .., binary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub ..,
    nullary_bufs_sub .., unary_bufs_sub .., unary_bufs_sub .., unary_bufs_sub .., unary_bufs_sub .., binary_bufs_sub ..,
    unary_bufs_sub .., nullary_bufs_sub .., binary_bufs_sub .., nullary_bufs_sub .., unary_bufs_sub ..,
    nullary_bufs_sub .., unary_bufs_sub .., binary_bufs_sub ..,
    unary_bufs_sub .., binary_bufs_sub .., nullary_bufs_sub .., unary_bufs_sub .., unary_bufs_sub .., unary_bufs_sub ..,
    unary_bufs_sub .., binary_bufs_sub .., unary_bufs_sub .., unary_bufs_sub .., unary_bufs_sub .., unary_bufs_sub ..,
    binary_bufs_sub .., nullary_bufs_sub ..,
    unary_bufs_sub .., unary_bufs_sub .., ternary_bufs_sub ..,
    nullary_bufs_sub .., unary_bufs_sub .., reshape_bufs_sub .., reshape_bufs_sub .., nullary_bufs_sub .., unary_bufs_sub ..,
    binary_bufs_sub .., nullary_bufs_sub .., unary_bufs_sub .., binary_bufs_sub .., ternary_bufs_sub .., unary_bufs_sub ..,
    ternary_bufs_sub .., unary_bufs_sub ..⟩

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefValue.lean ====
/-
  The reference's result buffers as named functions of the argument contents. The fold of the reference's
  operations, read at a result buffer, is by computation the composition of the operations that feed that buffer;
  spelt with the functions that name the shared host arithmetic (the descending-length permutation and its inverse,
  the sorted lengths, the batch sizes, the packed rows), the four results are: the packed rows of the gathered batch,
  the batch sizes of the sorted lengths, the permutation, and its inverse. The three arguments keep their contents.
-/
import proofs.«410026_j11879879542307_1_alg».proof.Proof.RefRun
import proofs.«410026_j11879879542307_1_alg».proof.Proof.Chain
import Idealize.ShloMosaic.Lib.StableHlo.Run

noncomputable section

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

/-- The batch of planes the reference gathers: x[sortedIdx], the index vector wrapped and made a column. -/
def refRows (x : FVec F S64x2048x512 .f32) (len : IVec S64 32) : FVec F S64x2048x512 .f32 :=
  Host.gather gather_S64x2048x512_S64x1_S64x2048x512_12_0_n_n_0_1_12048512 x (Cert.KernelIdeal.Chain.idxCol len)

/-! ## The arguments, the two permutations and the batch sizes, read through the whole fold

No operation writes an argument's buffer, so the fold leaves it: at each of the seventy operations the buffer read
is not the one written. The permutations and the batch sizes sit on nearly linear chains, read in one walk. The
sort, the gathers, the scatter, the two reductions and the concatenate are kept folded throughout: the equations
never look inside them. -/

attribute [local irreducible] Host.sort2 Host.gather Host.scatter Host.reduce Host.reduceWindow concatenate

set_option maxRecDepth 8192 in
set_option maxHeartbeats 400000 in
theorem arg0_eq (V : Valuation τ sig (Elt F)) :
    after ops V (main_arg0 : DevRef τ sig) = V (main_arg0 : DevRef τ sig) := by
  simp only [after_cons, after_nil]
  rfl

set_option maxRecDepth 8192 in
set_option maxHeartbeats 400000 in
theorem arg1_eq (V : Valuation τ sig (Elt F)) :
    after ops V (main_arg1 : DevRef τ sig) = V (main_arg1 : DevRef τ sig) := by
  simp only [after_cons, after_nil]
  rfl

set_option maxRecDepth 8192 in
set_option maxHeartbeats 400000 in
theorem arg2_eq (V : Valuation τ sig (Elt F)) :
    after ops V (main_arg2 : DevRef τ sig) = V (main_arg2 : DevRef τ sig) := by
  simp only [after_cons, after_nil]
  rfl

set_option maxRecDepth 8192 in
set_option maxHeartbeats 400000 in
/-- The first argsort's second result: the stable sort of (negated lengths, iota) by the first component, read at
    its second component. -/
theorem v1_eq (V : Valuation τ sig (Elt F)) :
    after ops V (main_v1 : DevRef τ sig) = Cert.KernelIdeal.Chain.sortedIdx (V (main_arg2 : DevRef τ sig)) := by
  simp only [after_cons, after_nil]
  rfl

set_option maxRecDepth 8192 in
set_option maxHeartbeats 400000 in
/-- The second argsort's: the same of that permutation. -/
theorem v2_eq (V : Valuation τ sig (Elt F)) :
    after ops V (main_v2 : DevRef τ sig) = Cert.KernelIdeal.Chain.unsortedIdx (V (main_arg2 : DevRef τ sig)) := by
  simp only [after_cons, after_nil]
  rfl

set_option maxRecDepth 8192 in
set_option maxHeartbeats 400000 in
/-- The lengths read through the wrapped permutation's column are the sorted lengths; spread along the rows of a
    64 × 2048 table and compared with the step along the columns, widened to 32 bits and summed over the batch
    axis, they give for each step the number of sequences longer than it. -/
theorem v24_eq (V : Valuation τ sig (Elt F)) :
    after ops V (main_v24 : DevRef τ sig)
      = Cert.KernelIdeal.Chain.batchSizes (Cert.KernelIdeal.Chain.sortedLen (V (main_arg2 : DevRef τ sig))) := by
  simp only [after_cons, after_nil]
  rfl

/-! ## The fold, stretch by stretch

Reading one buffer through a fold of n operations costs n decisions "is this the buffer the operation writes", and
every use of a shared intermediate repeats the walk below it; the packed rows depend on the permutation, the sorted
lengths and the flat destinations several times each. So the list is cut into consecutive stretches, each with its
own statements over an ARBITRARY incoming valuation, where an input is read in one walk of the stretch's length;
the fold over the whole list is the stretches' folds composed, and the packed rows are read off by rewriting
through the stretches from the last to the first. -/

/-- The fold over a concatenation is the second list's fold after the first's. -/
theorem after_append (A B : List (HloOp τ sig (Elt F))) (V : Valuation τ sig (Elt F)) :
    after (A ++ B) V = after B (after A V) := by
  induction A generalizing V with
  | nil => rfl
  | cons op A ih => exact ih _

/-- The negation of the lengths and the two argsorts: operations 1 to 7. -/
abbrev opsA : List (HloOp τ sig (Elt F)) := (ops (F := F)).take 7
/-- The wrap of the permutation and the gather of the lengths: operations 8 to 16. -/
abbrev opsB : List (HloOp τ sig (Elt F)) := ((ops (F := F)).drop 7).take 9
/-- The second wrap and the gather of the planes: operations 17 to 25. -/
abbrev opsC : List (HloOp τ sig (Elt F)) := ((ops (F := F)).drop 16).take 9
/-- The steps and the batch sizes: operations 26 to 34. -/
abbrev opsD1 : List (HloOp τ sig (Elt F)) := ((ops (F := F)).drop 25).take 9
/-- The cumulative sum and its shift behind a zero: operations 35 to 41. -/
abbrev opsD2 : List (HloOp τ sig (Elt F)) := ((ops (F := F)).drop 34).take 7
/-- The batch positions and the test "the step is inside the sequence": operations 42 to 47. -/
abbrev opsD3 : List (HloOp τ sig (Elt F)) := ((ops (F := F)).drop 41).take 6
/-- The destinations: operations 48 to 56. -/
abbrev opsD4 : List (HloOp τ sig (Elt F)) := ((ops (F := F)).drop 47).take 9
/-- The zero table and the two reshapes: operations 57 to 60. -/
abbrev opsE1 : List (HloOp τ sig (Elt F)) := ((ops (F := F)).drop 56).take 4
/-- The normalised destination column: operations 61 to 68. -/
abbrev opsE2 : List (HloOp τ sig (Elt F)) := ((ops (F := F)).drop 60).take 8
/-- The scatter and the slice: operations 69 and 70. -/
abbrev opsE3 : List (HloOp τ sig (Elt F)) :=
  [ ternary main_v41 main_v49 main_v43 main_v50 ((fun x i u => Host.scatter scatter_S131073x512_S131072x1_S131072x512_1_0_0_1 (fun _ b => b) x i u) : (⟨S131073x512, .f32⟩ : BufTy).Contents (Elt F) → (⟨S131072x1, .i32⟩ : BufTy).Contents (Elt F) → (⟨S131072x512, .f32⟩ : BufTy).Contents (Elt F) → (⟨S131073x512, .f32⟩ : BufTy).Contents (Elt F)),
    unary main_v50 main_v51 ((extractStridedSlice S131072x512 ![0, 0] · slices_S131073x512_S131072x512_0_0) : (⟨S131073x512, .f32⟩ : BufTy).Contents (Elt F) → (⟨S131072x512, .f32⟩ : BufTy).Contents (Elt F)) ]

/-- The list is its stretches in order. -/
theorem ops_split : (ops : List (HloOp τ sig (Elt F)))
    = opsA ++ (opsB ++ (opsC ++ (opsD1 ++ (opsD2 ++ (opsD3 ++ (opsD4 ++ (opsE1 ++ (opsE2 ++ opsE3)))))))) := by rfl

/-- So its fold is theirs, composed. -/
theorem after_ops (V : Valuation τ sig (Elt F)) :
    after ops V = after opsE3 (after opsE2 (after opsE1 (after opsD4 (after opsD3 (after opsD2 (after opsD1
      (after opsC (after opsB (after opsA V))))))))) :=
  (congrArg (fun l => after l V) ops_split).trans (by
    rw [after_append, after_append, after_append, after_append, after_append, after_append, after_append,
      after_append, after_append])

/-! ### The negation and the two argsorts -/

set_option maxRecDepth 8192 in
theorem A_v1 (W : Valuation τ sig (Elt F)) :
    after opsA W (main_v1 : DevRef τ sig)
      = Cert.KernelIdeal.Chain.sortedIdx (W (main_arg2 : DevRef τ sig)) := by rfl

set_option maxRecDepth 8192 in
theorem A_arg0 (W : Valuation τ sig (Elt F)) :
    after opsA W (main_arg0 : DevRef τ sig)
      = W (main_arg0 : DevRef τ sig) := by rfl

set_option maxRecDepth 8192 in
theorem A_arg2 (W : Valuation τ sig (Elt F)) :
    after opsA W (main_arg2 : DevRef τ sig)
      = W (main_arg2 : DevRef τ sig) := by rfl

/-! ### The sorted lengths -/

set_option maxRecDepth 8192 in
theorem B_v9 (W : Valuation τ sig (Elt F)) :
    after opsB W (main_v9 : DevRef τ sig)
      = Host.gather gather_S64_S64x1_S64_n_0_n_n_0_1_1 (W (main_arg2 : DevRef τ sig))
          (broadcastInDim S64x1 ![0] bcast_S64_S64x1_0 (Cert.KernelIdeal.Chain.wrap (W (main_v1 : DevRef τ sig)))) := by rfl

set_option maxRecDepth 8192 in
theorem B_arg0 (W : Valuation τ sig (Elt F)) :
    after opsB W (main_arg0 : DevRef τ sig)
      = W (main_arg0 : DevRef τ sig) := by rfl

set_option maxRecDepth 8192 in
theorem B_v1 (W : Valuation τ sig (Elt F)) :
    after opsB W (main_v1 : DevRef τ sig)
      = W (main_v1 : DevRef τ sig) := by rfl

/-! ### The gathered planes -/

set_option maxRecDepth 8192 in
theorem C_v16 (W : Valuation τ sig (Elt F)) :
    after opsC W (main_v16 : DevRef τ sig)
      = Host.gather gather_S64x2048x512_S64x1_S64x2048x512_12_0_n_n_0_1_12048512 (W (main_arg0 : DevRef τ sig))
          (broadcastInDim S64x1 ![0] bcast_S64_S64x1_0 (Cert.KernelIdeal.Chain.wrap (W (main_v1 : DevRef τ sig)))) := by rfl

set_option maxRecDepth 8192 in
theorem C_v9 (W : Valuation τ sig (Elt F)) :
    after opsC W (main_v9 : DevRef τ sig)
      = W (main_v9 : DevRef τ sig) := by rfl

/-! ### The steps and the batch sizes -/

set_option maxRecDepth 8192 in
theorem D1_v24 (W : Valuation τ sig (Elt F)) :
    after opsD1 W (main_v24 : DevRef τ sig)
      = Cert.KernelIdeal.Chain.batchSizes (W (main_v9 : DevRef τ sig)) := by rfl

set_option maxRecDepth 8192 in
theorem D1_v17 (W : Valuation τ sig (Elt F)) :
    after opsD1 W (main_v17 : DevRef τ sig)
      = iotaInDim S2048 32 0 := by rfl

set_option maxRecDepth 8192 in
theorem D1_v9 (W : Valuation τ sig (Elt F)) :
    after opsD1 W (main_v9 : DevRef τ sig)
      = W (main_v9 : DevRef τ sig) := by rfl

set_option maxRecDepth 8192 in
theorem D1_v16 (W : Valuation τ sig (Elt F)) :
    after opsD1 W (main_v16 : DevRef τ sig)
      = W (main_v16 : DevRef τ sig) := by rfl

/-! ### The exclusive prefix sums -/

set_option maxRecDepth 8192 in
theorem D2_v28 (W : Valuation τ sig (Elt F)) :
    after opsD2 W (main_v28 : DevRef τ sig)
      = concatenate S2048 0
          [⟨S1, broadcastInDim S1 ![] bcast_S_S1 (constantI S_ 32 0#32)⟩,
           ⟨S2047, extractStridedSlice S2047 ![0] (Cert.KernelIdeal.Chain.cumsum (W (main_v24 : DevRef τ sig)))
              slices_S2048_S2047_0⟩]
          concatenates_S1_S2047_S2048_d0 := by rfl

set_option maxRecDepth 8192 in
theorem D2_v17 (W : Valuation τ sig (Elt F)) :
    after opsD2 W (main_v17 : DevRef τ sig)
      = W (main_v17 : DevRef τ sig) := by rfl

set_option maxRecDepth 8192 in
theorem D2_v9 (W : Valuation τ sig (Elt F)) :
    after opsD2 W (main_v9 : DevRef τ sig)
      = W (main_v9 : DevRef τ sig) := by rfl

set_option maxRecDepth 8192 in
theorem D2_v16 (W : Valuation τ sig (Elt F)) :
    after opsD2 W (main_v16 : DevRef τ sig)
      = W (main_v16 : DevRef τ sig) := by rfl

/-! ### The batch positions and the test -/

set_option maxRecDepth 8192 in
theorem D3_v34 (W : Valuation τ sig (Elt F)) :
    after opsD3 W (main_v34 : DevRef τ sig)
      = cmpi .slt
          (broadcastInDim S64x2048 ![0, 1] bcast_S1x2048_S64x2048_0_1
            (broadcastInDim S1x2048 ![1] bcast_S2048_S1x2048_1 (W (main_v17 : DevRef τ sig))))
          (Cert.KernelIdeal.Chain.rows (W (main_v9 : DevRef τ sig))) := by rfl

set_option maxRecDepth 8192 in
theorem D3_v29 (W : Valuation τ sig (Elt F)) :
    after opsD3 W (main_v29 : DevRef τ sig)
      = iotaInDim S64 32 0 := by rfl

set_option maxRecDepth 8192 in
theorem D3_v28 (W : Valuation τ sig (Elt F)) :
    after opsD3 W (main_v28 : DevRef τ sig)
      = W (main_v28 : DevRef τ sig) := by rfl

set_option maxRecDepth 8192 in
theorem D3_v16 (W : Valuation τ sig (Elt F)) :
    after opsD3 W (main_v16 : DevRef τ sig)
      = W (main_v16 : DevRef τ sig) := by rfl

/-! ### The destinations -/

set_option maxRecDepth 8192 in
theorem D4_v40 (W : Valuation τ sig (Elt F)) :
    after opsD4 W (main_v40 : DevRef τ sig)
      = select (W (main_v34 : DevRef τ sig))
          (addi
            (broadcastInDim S64x2048 ![0, 1] bcast_S1x2048_S64x2048_0_1
              (broadcastInDim S1x2048 ![1] bcast_S2048_S1x2048_1 (W (main_v28 : DevRef τ sig))))
            (Cert.KernelIdeal.Chain.rows (W (main_v29 : DevRef τ sig))))
          (broadcastInDim S64x2048 ![] bcast_S_S64x2048 (id (constantI S_ 32 131072#32))) := by rfl

set_option maxRecDepth 8192 in
theorem D4_v16 (W : Valuation τ sig (Elt F)) :
    after opsD4 W (main_v16 : DevRef τ sig)
      = W (main_v16 : DevRef τ sig) := by rfl

/-! ### The zero table and the two reshapes -/

set_option maxRecDepth 8192 in
theorem E1_v41 (W : Valuation τ sig (Elt F)) :
    after opsE1 W (main_v41 : DevRef τ sig)
      = broadcastInDim S131073x512 ![] bcast_S_S131073x512 (constant S_ .f32 0x00000000#32) := by rfl

set_option maxRecDepth 8192 in
theorem E1_v42 (W : Valuation τ sig (Elt F)) :
    after opsE1 W (main_v42 : DevRef τ sig)
      = shapeCast S131072 (W (main_v40 : DevRef τ sig)) shapeCasts_S64x2048_S131072 := by rfl

set_option maxRecDepth 8192 in
theorem E1_v43 (W : Valuation τ sig (Elt F)) :
    after opsE1 W (main_v43 : DevRef τ sig)
      = shapeCast S131072x512 (W (main_v16 : DevRef τ sig)) shapeCasts_S64x2048x512_S131072x512 := by rfl

/-! ### The normalised destination column -/

set_option maxRecDepth 8192 in
theorem E2_v49 (W : Valuation τ sig (Elt F)) :
    after opsE2 W (main_v49 : DevRef τ sig)
      = broadcastInDim S131072x1 ![0] bcast_S131072_S131072x1_0
          (select
            (cmpi .slt (W (main_v42 : DevRef τ sig))
              (broadcastInDim S131072 ![] bcast_S_S131072 (constantI S_ 32 0#32)))
            (addi (W (main_v42 : DevRef τ sig))
              (broadcastInDim S131072 ![] bcast_S_S131072 (constantI S_ 32 131073#32)))
            (W (main_v42 : DevRef τ sig))) := by rfl

set_option maxRecDepth 8192 in
theorem E2_v41 (W : Valuation τ sig (Elt F)) :
    after opsE2 W (main_v41 : DevRef τ sig)
      = W (main_v41 : DevRef τ sig) := by rfl

set_option maxRecDepth 8192 in
theorem E2_v43 (W : Valuation τ sig (Elt F)) :
    after opsE2 W (main_v43 : DevRef τ sig)
      = W (main_v43 : DevRef τ sig) := by rfl

/-! ### The scatter and the slice

Stated with the element type explicit, over the reference's own constants, and read off the two operations' result
equations rather than by unfolding: the two programs' records are different constants with equal values, which the
last lemma identifies with the arguments as variables. -/

/-- The rows `u` written into the table `a` at the rows the column `i` names, the last row of the table dropped. -/
def refScatterRows (a : (⟨S131073x512, .f32⟩ : BufTy).Contents (Elt F)) (i : (⟨S131072x1, .i32⟩ : BufTy).Contents (Elt F))
    (u : (⟨S131072x512, .f32⟩ : BufTy).Contents (Elt F)) : (⟨S131072x512, .f32⟩ : BufTy).Contents (Elt F) :=
  extractStridedSlice (α := Elt F .f32) S131072x512 ![0, 0]
    (Host.scatter (α := Elt F .f32) scatter_S131073x512_S131072x1_S131072x512_1_0_0_1 (fun _ b => b) a i u)
    slices_S131073x512_S131072x512_0_0

theorem E3_v51 (W : Valuation τ sig (Elt F)) :
    after opsE3 W (main_v51 : DevRef τ sig)
      = refScatterRows (W (main_v41 : DevRef τ sig)) (W (main_v49 : DevRef τ sig)) (W (main_v43 : DevRef τ sig)) := by
  unfold refScatterRows
  simp only [opsE3]
  after_results

theorem refScatterRows_eq (a : (⟨S131073x512, .f32⟩ : BufTy).Contents (Elt F))
    (i : (⟨S131072x1, .i32⟩ : BufTy).Contents (Elt F)) (u : (⟨S131072x512, .f32⟩ : BufTy).Contents (Elt F)) :
    refScatterRows a i u = Cert.KernelIdeal.Chain.scatterRows a i u := by
  unfold refScatterRows Cert.KernelIdeal.Chain.scatterRows
  rfl

/-! ## The packed rows

The gathered batch, flattened to 131072 rows, is scattered into the zero table of 131073 rows at the destinations:
the exclusive prefix sums of the batch sizes plus the batch position where the step is inside the sequence, the
spare row elsewhere, flattened, normalised and made a column; the slice drops the spare row. -/

set_option maxRecDepth 8192 in
set_option maxHeartbeats 400000 in
theorem v51_eq (V : Valuation τ sig (Elt F)) :
    after ops V (main_v51 : DevRef τ sig)
      = Cert.KernelIdeal.Chain.packed (refRows (V (main_arg0 : DevRef τ sig)) (V (main_arg2 : DevRef τ sig)))
          (Cert.KernelIdeal.Chain.sortedLen (V (main_arg2 : DevRef τ sig))) := by
  rw [after_ops, E3_v51, E2_v49, E2_v41, E2_v43, E1_v41, E1_v42, E1_v43, D4_v40, D4_v16, D3_v34, D3_v29, D3_v28, D3_v16,
    D2_v28, D2_v17, D2_v9, D2_v16, D1_v24, D1_v17, D1_v9, D1_v16, C_v16, C_v9, B_v9, B_arg0, B_v1, A_v1, A_arg0, A_arg2,
    refScatterRows_eq]
  rfl

end Cert.ReferenceIdeal.RefValue

end
-- ==== Proof.lean ====
/-
  The packed-sequence program: `argsort(-lengths)` orders the 64 sequences by descending length, the batch is gathered
  in that order, and the rows of the gathered batch are scattered, time step by time step, into one packed buffer.
  The kernel's program does the gather with a pipelined copy whose input block at grid point `i` is the plane the
  permutation names at position `i`; the reference does it with jnp's `inputs[sortedIdx]`. Everything else is the same
  host arithmetic in both.

  * The frames of the kernel's two programs hold for every launch memory: the pipeline's side condition on its table
    (every table-indexed block inside the array) holds because a permutation's words are positions (`Table.ok`).
  * The reference is a straight line of host operations once its calls are unfolded (`RefRun`), which gives its frame.
  * No operation was rewritten for the ideal reading, so there is nothing to preserve.
  * At the ideal instance both programs end with the packed buffer `packed rows (sortedLen lengths)`, the batch sizes,
    the permutation and its inverse, all as the shared functions of `Chain`; the kernel's `rows` is what its region
    leaves (`Region.final`), the reference's is its gather, and the two are one array (`Bridge.gather_eq_gathered`).
-/
import proofs.«410026_j11879879542307_1_alg».proof.Defs
import proofs.«410026_j11879879542307_1_alg».proof.Proof.Gen.Kernel
import proofs.«410026_j11879879542307_1_alg».proof.Proof.Gen.Kernel.Skeleton
import proofs.«410026_j11879879542307_1_alg».proof.Proof.Gen.Kernel.Launch
import proofs.«410026_j11879879542307_1_alg».proof.Proof.Gen.Kernel.Points
import proofs.«410026_j11879879542307_1_alg».proof.Proof.Gen.Kernel.Frame
import proofs.«410026_j11879879542307_1_alg».proof.Proof.Gen.KernelIdeal
import proofs.«410026_j11879879542307_1_alg».proof.Proof.Gen.KernelIdeal.Skeleton
import proofs.«410026_j11879879542307_1_alg».proof.Proof.Gen.KernelIdeal.Launch
import proofs.«410026_j11879879542307_1_alg».proof.Proof.Gen.KernelIdeal.Points
import proofs.«410026_j11879879542307_1_alg».proof.Proof.Gen.KernelIdeal.Frame
import proofs.«410026_j11879879542307_1_alg».proof.Proof.Gen.ReferenceIdeal
import proofs.«410026_j11879879542307_1_alg».proof.Proof.Gen.Pre_finite_inputs
import proofs.«410026_j11879879542307_1_alg».proof.Proof.KernelTable
import proofs.«410026_j11879879542307_1_alg».proof.Proof.KernelIdealTable
import proofs.«410026_j11879879542307_1_alg».proof.Proof.KernelIdealValue
import proofs.«410026_j11879879542307_1_alg».proof.Proof.Bridge
import proofs.«410026_j11879879542307_1_alg».proof.Proof.RefRun
import proofs.«410026_j11879879542307_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and keeps its arguments: its table is in range for every launch memory. -/
theorem frame_k : Cert.frame_Kernel := fun m ρ _ => Cert.Kernel.Gen.frame m ρ (Cert.Kernel.Table.ok m)

/-- So does the idealized kernel program. -/
theorem frame_ki : Cert.frame_KernelIdeal := fun m ρ _ => Cert.KernelIdeal.Gen.frame m ρ (Cert.KernelIdeal.Table.ok m)

/-- The reference runs and keeps its arguments: no operation of its line writes an argument. -/
theorem frame_ri : Cert.frame_ReferenceIdeal := fun m ρ _ =>
  (θ_run Cert.ReferenceIdeal.defs _ _).mono
    (fun _ h c => ⟨(h c Cert.ReferenceIdeal.main_arg0).trans (Cert.ReferenceIdeal.RefValue.arg0_eq _),
      (h c Cert.ReferenceIdeal.main_arg1).trans (Cert.ReferenceIdeal.RefValue.arg1_eq _),
      (h c Cert.ReferenceIdeal.main_arg2).trans (Cert.ReferenceIdeal.RefValue.arg2_eq _)⟩)
    (Cert.ReferenceIdeal.RefRun.run_main m ρ)

/-- The ideal pass rewrote nothing. -/
theorem preserves : Cert.preserves_Kernel_KernelIdeal := trivial

/-- Both idealized programs end with the same four results: the shared host arithmetic applied to one batch of planes. -/
theorem algebraic : Cert.algebraic_KernelIdeal_ReferenceIdeal := by
  intro m ρ m' ρ' _ hagree
  refine ⟨fun c => Cert.KernelIdeal.Chain.packed (Cert.KernelIdeal.Region.gathered m c)
        (Cert.KernelIdeal.Chain.sortedLen (m ((c.tc : Thread Cert.KernelIdeal.nD Cert.KernelIdeal.τ).loc Cert.KernelIdeal.main_arg2))),
      fun c => Cert.KernelIdeal.Chain.batchSizes
        (Cert.KernelIdeal.Chain.sortedLen (m ((c.tc : Thread Cert.KernelIdeal.nD Cert.KernelIdeal.τ).loc Cert.KernelIdeal.main_arg2))),
      fun c => Cert.KernelIdeal.Chain.sortedIdx (m ((c.tc : Thread Cert.KernelIdeal.nD Cert.KernelIdeal.τ).loc Cert.KernelIdeal.main_arg2)),
      fun c => Cert.KernelIdeal.Chain.unsortedIdx (m ((c.tc : Thread Cert.KernelIdeal.nD Cert.KernelIdeal.τ).loc Cert.KernelIdeal.main_arg2)),
      Cert.KernelIdeal.Value.run m ρ (Cert.KernelIdeal.Table.ok m), ?_⟩
  refine (θ_run Cert.ReferenceIdeal.defs _ _).mono (fun r h c => ?_) (Cert.ReferenceIdeal.RefRun.run_main m' ρ')
  refine ⟨(h c Cert.ReferenceIdeal.main_v51).trans ?_, (h c Cert.ReferenceIdeal.main_v24).trans ?_,
    (h c Cert.ReferenceIdeal.main_v1).trans ?_, (h c Cert.ReferenceIdeal.main_v2).trans ?_,
    (h c Cert.ReferenceIdeal.main_arg0).trans (Cert.ReferenceIdeal.RefValue.arg0_eq _),
    (h c Cert.ReferenceIdeal.main_arg1).trans (Cert.ReferenceIdeal.RefValue.arg1_eq _),
    (h c Cert.ReferenceIdeal.main_arg2).trans (Cert.ReferenceIdeal.RefValue.arg2_eq _)⟩
  · rw [Cert.ReferenceIdeal.RefValue.v51_eq]
    show Cert.KernelIdeal.Chain.packed (F := Ideal)
        (Cert.ReferenceIdeal.RefValue.refRows (F := Ideal)
          (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg2)))
        (Cert.KernelIdeal.Chain.sortedLen (m' ((c.tc : Thread Cert.ReferenceIdeal.nD Cert.ReferenceIdeal.τ).loc Cert.ReferenceIdeal.main_arg2))) = _
    rw [(hagree c).1, (hagree c).2.2]
    exact congrArg (fun x => Cert.KernelIdeal.Chain.packed x _)
      (Cert.KernelIdeal.Bridge.gather_eq_gathered m c _ rfl rfl rfl rfl rfl)
  · rw [Cert.ReferenceIdeal.RefValue.v24_eq]
    show Cert.KernelIdeal.Chain.batchSizes (Cert.KernelIdeal.Chain.sortedLen
      (m' ((c.tc : Thread Cert.ReferenceIdeal.nD Cert.ReferenceIdeal.τ).loc Cert.ReferenceIdeal.main_arg2))) = _
    rw [(hagree c).2.2]
  · rw [Cert.ReferenceIdeal.RefValue.v1_eq]
    show Cert.KernelIdeal.Chain.sortedIdx
      (m' ((c.tc : Thread Cert.ReferenceIdeal.nD Cert.ReferenceIdeal.τ).loc Cert.ReferenceIdeal.main_arg2)) = _
    rw [(hagree c).2.2]
  · rw [Cert.ReferenceIdeal.RefValue.v2_eq]
    show Cert.KernelIdeal.Chain.unsortedIdx
      (m' ((c.tc : Thread Cert.ReferenceIdeal.nD Cert.ReferenceIdeal.τ).loc Cert.ReferenceIdeal.main_arg2)) = _
    rw [(hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
